-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_v32) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S8192x2048 : Shape := ⟨2, ![8192, 2048]⟩
abbrev S4096x2048 : Shape := ⟨2, ![4096, 2048]⟩
abbrev S2048 : Shape := ⟨1, ![2048]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_
  bcast_S_S4096x2048 : S_.BroadcastsInDim S4096x2048 (![] : Fin 0 → Fin S4096x2048.rank)
  reducesTo_S4096x2048_S_d0_1 : S4096x2048.ReducesTo [0, 1] S_
  bcast_S_S2048 : S_.BroadcastsInDim S2048 (![] : Fin 0 → Fin S2048.rank)
  reducesTo_S2048_S_d0 : S2048.ReducesTo [0] S_

variable [Facts]

def fn_part3 {F : FTy → Type} [FloatOps F] (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  main_v53

def fn_part2 {F : FTy → Type} [FloatOps F] (main_arg7 : FVec F S4096x2048 .f32) (main_arg8 : FVec F S2048 .f32) (main_arg9 : FVec F S4096x2048 .f32) (main_arg10 : FVec F S2048 .f32) (main_v33 : IVec S_ 1) : IVec S_ 1 :=
  let main_v34 : FVec F S4096x2048 .f32 := Host.absf main_arg7
  let main_cst_12 : FVec F S_ .f32 := constant S_ .f32 0x7F800000#32
  let main_v35 : FVec F S4096x2048 .f32 := broadcastInDim S4096x2048 ![] bcast_S_S4096x2048 main_cst_12
  let main_v36 : IVec S4096x2048 1 := cmpf .olt main_v34 main_v35
  let main_c_13 : IVec S_ 1 := constantI S_ 1 1#1
  let main_v37 : IVec S_ 1 := (fun x v => Host.reduce IntOp.andi x v reducesTo_S4096x2048_S_d0_1 h_S_) main_v36 main_c_13
  let main_v38 : IVec S_ 1 := andi main_v33 main_v37
  let main_v39 : FVec F S2048 .f32 := Host.absf main_arg8
  let main_cst_14 : FVec F S_ .f32 := constant S_ .f32 0x7F800000#32
  let main_v40 : FVec F S2048 .f32 := broadcastInDim S2048 ![] bcast_S_S2048 main_cst_14
  let main_v41 : IVec S2048 1 := cmpf .olt main_v39 main_v40
  let main_c_15 : IVec S_ 1 := constantI S_ 1 1#1
  let main_v42 : IVec S_ 1 := (fun x v => Host.reduce IntOp.andi x v reducesTo_S2048_S_d0 h_S_) main_v41 main_c_15
  let main_v43 : IVec S_ 1 := andi main_v38 main_v42
  let main_v44 : FVec F S4096x2048 .f32 := Host.absf main_arg9
  let main_cst_16 : FVec F S_ .f32 := constant S_ .f32 0x7F800000#32
  let main_v45 : FVec F S4096x2048 .f32 := broadcastInDim S4096x2048 ![] bcast_S_S4096x2048 main_cst_16
  let main_v46 : IVec S4096x2048 1 := cmpf .olt main_v44 main_v45
  let main_c_17 : IVec S_ 1 := constantI S_ 1 1#1
  let main_v47 : IVec S_ 1 := (fun x v => Host.reduce IntOp.andi x v reducesTo_S4096x2048_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_v48 main_v49 main_v50

def fn_part1 {F : FTy → Type} [FloatOps F] (main_arg4 : FVec F S2048 .f32) (main_arg5 : FVec F S4096x2048 .f32) (main_arg6 : FVec F S2048 .f32) (main_arg7 : FVec F S4096x2048 .f32) (main_arg8 : FVec F S2048 .f32) (main_arg9 : FVec F S4096x2048 .f32) (main_arg10 : FVec F S2048 .f32) (main_v13 : IVec S_ 1) (main_v16 : IVec S4096x2048 1) : IVec S_ 1 :=
  let main_c_5 : IVec S_ 1 := constantI S_ 1 1#1
  let main_v17 : IVec S_ 1 := (fun x v => Host.reduce IntOp.andi x v reducesTo_S4096x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S4096x2048 .f32 := Host.absf main_arg5
  let main_cst_8 : FVec F S_ .f32 := constant S_ .f32 0x7F800000#32
  let main_v25 : FVec F S4096x2048 .f32 := broadcastInDim S4096x2048 ![] bcast_S_S4096x2048 main_cst_8
  let main_v26 : IVec S4096x2048 1 := cmpf .olt main_v24 main_v25
  let main_c_9 : IVec S_ 1 := constantI S_ 1 1#1
  let main_v27 : IVec S_ 1 := (fun x v => Host.reduce IntOp.andi x v reducesTo_S4096x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x4096 .f32) (main_arg1 : FVec F S8192x4096 .f32) (main_arg2 : FVec F S8192x2048 .f32) (main_arg3 : FVec F S4096x2048 .f32) (main_arg4 : FVec F S2048 .f32) (main_arg5 : FVec F S4096x2048 .f32) (main_arg6 : FVec F S2048 .f32) (main_arg7 : FVec F S4096x2048 .f32) (main_arg8 : FVec F S2048 .f32) (main_arg9 : FVec F S4096x2048 .f32) (main_arg10 : FVec F S2048 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S4096x2048 .f32 := Host.absf main_arg3
  let main_cst_4 : FVec F S_ .f32 := constant S_ .f32 0x7F800000#32
  let main_v15 : FVec F S4096x2048 .f32 := broadcastInDim S4096x2048 ![] bcast_S_S4096x2048 main_cst_4
  let main_v16 : IVec S4096x2048 1 := cmpf .olt main_v14 main_v15
  fn_part1 (F := F) main_arg4 main_arg5 main_arg6 main_arg7 main_arg8 main_arg9 main_arg10 main_v13 main_v16
-- ==== Kernel.lean ====
abbrev S8192x4096 : Shape := ⟨2, ![8192, 4096]⟩
abbrev S8192x2048 : Shape := ⟨2, ![8192, 2048]⟩
abbrev S4096x2048 : Shape := ⟨2, ![4096, 2048]⟩
abbrev S2048 : Shape := ⟨1, ![2048]⟩
abbrev S1x2048 : Shape := ⟨2, ![1, 2048]⟩
abbrev S512x512 : Shape := ⟨2, ![512, 512]⟩
abbrev S1x512 : Shape := ⟨2, ![1, 512]⟩

abbrev nBuf : Space → Nat
  | .hbm => 18
  | .vmem => 32
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S2048, .f32⟩
  | .hbm, ⟨11, _⟩ => ⟨S1x2048, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | .local _ .vmem, ⟨31, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4_0 : Ref sig .tc := ⟨.hbm, 15, rfl⟩
abbrev main_v4_1 : Ref sig .tc := ⟨.hbm, 16, rfl⟩
abbrev main_v4_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_scratch1 : Ref sig .tc := ⟨.vmem, 29, rfl⟩
abbrev cc0_scratch2 : Ref sig .tc := ⟨.vmem, 30, rfl⟩
abbrev cc0_scratch3 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨3, ![16, 4, 8], ![false, false, false]⟩

def k0_cond2 (i : grid0.Coords) : BitVec 1 :=
  let arg2 : BitVec 32 := BitVec.ofNat 32 (i 2).val
  let c7_i32 : BitVec 32 := 7#32
  let v39 : BitVec 1 := Scalar.cmpi .eq arg2 c7_i32
  let v40 : BitVec 32 := Scalar.extui v39
  let c0_i32_31 : BitVec 32 := 0#32
  let v41 : BitVec 1 := Scalar.cmpi .ne v40 c0_i32_31
  v41

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, false]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, false]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, false]

class Facts₀ : Prop where
  shapeCasts_S2048_S1x2048 : S2048.ShapeCasts S1x2048
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .f32 = 32 ∨ (Rect.block (s := S8192x4096) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x4096.size a
  hwx0_1 : ∀ i : grid0.Coords, EltTy.bits .f32 = 32 ∨ (Rect.block (s := S8192x4096) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S4096x2048.size a
  hwx0_2 : ∀ i : grid0.Coords, EltTy.bits .f32 = 32 ∨ (Rect.block (s := S4096x2048) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x2048.size a
  hwx0_3 : ∀ i : grid0.Coords, EltTy.bits .f32 = 32 ∨ (Rect.block (s := S4096x2048) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S4096x2048.size a
  hwx0_4 : ∀ i : grid0.Coords, EltTy.bits .f32 = 32 ∨ (Rect.block (s := S4096x2048) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S4096x2048.size a
  hwx0_5 : ∀ i : grid0.Coords, EltTy.bits .f32 = 32 ∨ (Rect.block (s := S4096x2048) S512x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x2048.size a
  hwx0_6 : ∀ i : grid0.Coords, EltTy.bits .f32 = 32 ∨ (Rect.block (s := S1x2048) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x2048.size a
  hwx0_7 : ∀ i : grid0.Coords, EltTy.bits .f32 = 32 ∨ (Rect.block (s := S1x2048) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x512.size a ≤ S1x2048.size a
  hwx0_8 : ∀ i : grid0.Coords, EltTy.bits .f32 = 32 ∨ (Rect.block (s := S1x2048) S1x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x512.size a ≤ S1x2048.size a
  hwx0_9 : ∀ i : grid0.Coords, EltTy.bits .f32 = 32 ∨ (Rect.block (s := S1x2048) S1x512.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x512.size a ≤ S8192x2048.size a
  hwx0_10 : ∀ i : grid0.Coords, EltTy.bits .f32 = 32 ∨ (Rect.block (s := S8192x2048) S512x512.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S512x512.size a ≤ S8192x2048.size a
  hwx0_11 : ∀ i : grid0.Coords, EltTy.bits .f32 = 32 ∨ (Rect.block (s := S8192x2048) S512x512.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x512.size a ≤ S8192x2048.size a
  hwx0_12 : ∀ i : grid0.Coords, EltTy.bits .f32 = 32 ∨ (Rect.block (s := S8192x2048) S512x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S512x512.size a ≤ S8192x2048.size a
  hwx0_13 : ∀ i : grid0.Coords, EltTy.bits .f32 = 32 ∨ (Rect.block (s := S8192x2048) S512x512.size (cc0_transform_13 i) (hinb0_13 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S512x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg9) S512x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S1x512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1x512.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1x512.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3) S1x512.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_arg2) S512x512.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v4_0) S512x512.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v4_1) S512x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v4_2) S512x512.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

abbrev idle0 : Fin 14 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun i => !(k0_cond2 i == 1#1) | 12 => fun i => !(k0_cond2 i == 1#1) | 13 => fun i => !(k0_cond2 i == 1#1) | ⟨_ + 14, h⟩ => absurd h (Nat.not_lt.2 (Nat.le_add_left _ _))

class Facts : Prop extends Facts₀ where

variable [Facts]
-- ==== ReferenceIdeal.lean ====
abbrev S8192x4096 : Shape := ⟨2, ![8192, 4096]⟩
abbrev S8192x2048 : Shape := ⟨2, ![8192, 2048]⟩
abbrev S4096x2048 : Shape := ⟨2, ![4096, 2048]⟩
abbrev S2048 : Shape := ⟨1, ![2048]⟩
abbrev S4096x8192 : Shape := ⟨2, ![4096, 8192]⟩
abbrev S8192 : Shape := ⟨1, ![8192]⟩
abbrev S8192x8192 : Shape := ⟨2, ![8192, 8192]⟩
abbrev S1x8192 : Shape := ⟨2, ![1, 8192]⟩
abbrev S_ : Shape := ⟨0, ![]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x4096, .f32⟩
  | .hbm, ⟨2, _⟩ => ⟨S8192x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S2048, .f32⟩
  | .hbm, ⟨7, _⟩ => ⟨S4096x2048, .f32⟩
  | .hbm, ⟨8, _⟩ => ⟨S2048, .f32⟩
  | .hbm, ⟨9, _⟩ => ⟨S4096x2048, .f32⟩
  | .hbm, ⟨10, _⟩ => ⟨S2048, .f32⟩
  | .hbm, ⟨11, _⟩ => ⟨S8192x4096, .f32⟩
  | .hbm, ⟨12, _⟩ => ⟨S4096x8192, .f32⟩
  | .hbm, ⟨13, _⟩ => ⟨S8192, .f32⟩
  | .hbm, ⟨14, _⟩ => ⟨S8192x8192, .f32⟩
  | .hbm, ⟨15, _⟩ => ⟨S1x8192, .f32⟩
  | .hbm, ⟨16, _⟩ => ⟨S8192x8192, .f32⟩
  | .hbm, ⟨17, _⟩ => ⟨S8192x8192, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S8192x2048, .f32⟩
  | .hbm, ⟨23, _⟩ => ⟨S8192x2048, .f32⟩
  | .hbm, ⟨24, _⟩ => ⟨S_, .f32⟩
  | .hbm, ⟨25, _⟩ => ⟨S8192x2048, .f32⟩
  | .hbm, ⟨26, _⟩ => ⟨S8192x2048, .f32⟩
  | .hbm, ⟨27, _⟩ => ⟨S_, .f32⟩
  | .hbm, ⟨28, _⟩ => ⟨S8192x2048, .f32⟩
  | .hbm, ⟨29, _⟩ => ⟨S8192x2048, .f32⟩
  | .hbm, ⟨30, _⟩ => ⟨S8192x2048, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S_, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S_, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S_, .f32⟩
  | .hbm, ⟨53, _⟩ => ⟨S8192x2048, .f32⟩
  | .hbm, ⟨54, _⟩ => ⟨S8192x2048, .f32⟩
  | .hbm, ⟨55, _⟩ => ⟨S_, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_5 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩

abbrev nD : Nat := 1
abbrev τ : Topo := Topo.v7x

variable {F : FTy → Type} [FloatOps F]

class Facts₀ : Prop where
  concatenates_S4096x2048_S4096x2048_S4096x2048_S4096x2048_S4096x8192_d1 : Shape.Concatenates [S4096x2048, S4096x2048, S4096x2048, S4096x2048] S4096x8192 1
  concatenates_S2048_S2048_S2048_S2048_S8192_d0 : Shape.Concatenates [S2048, S2048, S2048, S2048] S8192 0
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x4096_S4096x8192_S8192x8192_1_0_0_1_n_n_wf : DotDims.WF S8192x4096 S4096x8192 S8192x8192 [1] [0] [0] [1] [] []

variable [Facts₀]

def dot_S8192x4096_S4096x8192_S8192x8192_1_0_0_1_n_n : DotDims S8192x4096 S4096x8192 S8192x8192 where
  lhsContracting := [1]
  rhsContracting := [0]
  lhsNonContracting := [0]
  rhsNonContracting := [1]
  lhsBatch := []
  rhsBatch := []
  wf := dot_S8192x4096_S4096x8192_S8192x8192_1_0_0_1_n_n_wf

class Facts : Prop extends Facts₀ where

variable [Facts]
-- ==== Proof.Spec.lean ====
/-
  What an LSTM cell step computes, index by index, on the extended reals.

  A gate's pre-activation at row `r`, column `c` is the row `r` of `x + h` against column `c` of the gate's weight
  matrix, plus the gate's bias at `c`: a sum over the 4096 contraction indices. The cell's three results are pointwise
  functions of the four pre-activations (forget, candidate, input, output) and the old cell state:
    new cell   = cell · σ(f) + tanh(g) · σ(σ(i))        (the input gate passes through the sigmoid twice)
    out        = σ(o)
    new hidden = σ(o) · tanh(new cell)
  with σ x = 1 / (1 + e^(-x)). The sigmoid written out as negate, exponential, add one, divide into one is the same
  function as the one-operation logistic on every extended real, the literal `1.0` being exactly one.
-/
import Idealize.ShloMosaic.PureOps.Ideal
import Idealize.ShloMosaic.PureOps.Ideal.Laws
import Idealize.ShloMosaic.Lib.ValueIdx

noncomputable section

open scoped BigOperators

namespace Cert.Lstm

open Idealize.ShloMosaic Idealize.ShloMosaic.ValueIdx

/-- The shapes: activations [8192, 4096], a weight matrix [4096, 2048], a bias [2048], a result [8192, 2048]. -/
abbrev ActS : Shape := ⟨2, ![8192, 4096]⟩
abbrev WgtS : Shape := ⟨2, ![4096, 2048]⟩
abbrev BiasS : Shape := ⟨1, ![2048]⟩
abbrev ResS : Shape := ⟨2, ![8192, 2048]⟩

/-- One summand of a gate's contraction: entry `k` of row `r` of `x + h`, times entry `k` of column `c` of `W`.
    Stated for every natural `k` (zero past the end) so that sums over blocks of `k` need no bound. -/
def term (x h : FVec Ideal ActS .f32) (W : FVec Ideal WgtS .f32) (r : Fin 8192) (c : Fin 2048) (k : Nat) : EReal :=
  if hk : k < 4096 then (x (ix2 r ⟨k, hk⟩) + h (ix2 r ⟨k, hk⟩)) * W (ix2 ⟨k, hk⟩ c) else 0

/-- A gate's pre-activation at `(r, c)`: the whole contraction, then the bias. -/
def gateAt (x h : FVec Ideal ActS .f32) (W : FVec Ideal WgtS .f32) (b : FVec Ideal BiasS .f32)
    (r : Fin 8192) (c : Fin 2048) : EReal :=
  (∑ k : Fin 4096, term x h W r c k.val) + b (ix1 c)

/-- A gate's pre-activation as an array. -/
def gate (x h : FVec Ideal ActS .f32) (W : FVec Ideal WgtS .f32) (b : FVec Ideal BiasS .f32) : FVec Ideal ResS .f32 :=
  fun i => gateAt x h W b ⟨(i 0).val, idx2_lt0 i⟩ ⟨(i 1).val, idx2_lt1 i⟩

variable {s : Shape}

/-- The new cell state from the forget, candidate and input pre-activations and the old cell state. -/
def cellNext (gf gc gi cell : FVec Ideal s .f32) : FVec Ideal s .f32 :=
  addf (mulf cell (logistic gf)) (mulf (tanh gc) (logistic (logistic gi)))

/-- The output gate. -/
def outGate (go : FVec Ideal s .f32) : FVec Ideal s .f32 := logistic go

/-- The new hidden state. -/
def hidNext (gf gc gi go cell : FVec Ideal s .f32) : FVec Ideal s .f32 :=
  mulf (outGate go) (tanh (cellNext gf gc gi cell))

/-- The f32 word `0x3F800000` is the real number one. -/
theorem one_word : Ideal.ofBits .f32 0x3F800000#32 = (1 : EReal) := by
  simp [Ideal.ofBits, Ideal.ieee, -EReal.coe_mul]; norm_num

/-- The f32 zero word is zero. -/
theorem zero_word : Ideal.ofBits .f32 0x00000000#32 = (0 : EReal) := Ideal.ofBits_zero_f32

/-- The sigmoid spelled with the host's negate, exponential, add and divide, the ones being the literal `1.0`
    broadcast, is the logistic: at every extended real both are `1 / (1 + e^(-x))`. -/
theorem spelled_sigmoid (one₁ one₂ x : FVec Ideal s .f32) (h₁ : ∀ i, one₁ i = 1) (h₂ : ∀ i, one₂ i = 1) :
    Host.divf one₂ (addf one₁ (Host.exp (Host.negf x))) = logistic x := by
  funext i
  show FloatOps.hostDivf (one₂ i) (FloatOps.addf (one₁ i) (FloatOps.hostUnary .exp (FloatOps.hostNegf (x i)))) = FloatOps.logistic (x i)
  rw [h₁, h₂]
  rfl

/-- The host's hyperbolic tangent is the kernel's. -/
theorem host_tanh (x : FVec Ideal s .f32) : Host.tanh x = tanh x := rfl

end Cert.Lstm
-- ==== Proof.RefIs.lean ====
/-
  The reference program, read as the cell step of the specification.

  The reference joins the four weight matrices side by side into one [4096, 8192] matrix and the four biases into one
  [8192] vector, takes ONE product of `x + h` with the joined matrix, adds the joined bias, and cuts the [8192, 8192]
  result back into four [8192, 2048] column bands. Column `2048·g + c` of the joined matrix is column `c` of gate `g`'s
  matrix, and entry `2048·g + c` of the joined bias is entry `c` of gate `g`'s bias, so band `g` is gate `g`'s
  pre-activation. The rest of the reference is the pointwise cell update with each sigmoid spelled out.
-/
import proofs.«170384_j37924561224179_1_alg».proof.Proof.Gen.ReferenceIdeal.Read
import proofs.«170384_j37924561224179_1_alg».proof.Proof.Spec
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

variable (x0 x1 : FVec Ideal S8192x4096 .f32) (x2 : FVec Ideal S8192x2048 .f32)
  (x3 x5 x7 x9 : FVec Ideal S4096x2048 .f32) (x4 x6 x8 x10 : FVec Ideal S2048 .f32)

/-- The joined weight matrix at `(k, pre + c)`, where `pre` is the width of the matrices before the `g`-th: the
    `g`-th matrix at `(k, c)`. -/
theorem wcat_piece (g : Nat) (hg : g < 4) (W : FVec Ideal S4096x2048 .f32)
    (hW : [(⟨S4096x2048, x3⟩ : (s : Shape) × (s.Idx → Ideal .f32)), ⟨S4096x2048, x5⟩, ⟨S4096x2048, x7⟩, ⟨S4096x2048, x9⟩][g]'hg = ⟨S4096x2048, W⟩)
    (pre : Nat) (hpre : 2048 * g = pre) (j : S4096x8192.Idx) (i : S4096x2048.Idx)
    (hi0 : (i 0).val = (j 0).val) (hi1 : pre + (i 1).val = (j 1).val) :
    val_main_v1 (F := Ideal) x3 x5 x7 x9 j = W i := by
  unfold val_main_v1
  refine concatenate_apply_piece (1 : Fin S4096x8192.rank)
    [(⟨S4096x2048, x3⟩ : (s : Shape) × (s.Idx → Ideal .f32)), ⟨S4096x2048, x5⟩, ⟨S4096x2048, x7⟩, ⟨S4096x2048, x9⟩]
    concatenates_S4096x2048_S4096x2048_S4096x2048_S4096x2048_S4096x8192_d1 j g hg S4096x2048 W hW rfl pre ?_ i ?_ hi1
  · subst hpre
    interval_cases g <;> rfl
  · intro b hb
    match b with
    | ⟨0, _⟩ => exact hi0
    | ⟨1, _⟩ => exact absurd rfl hb

/-- The joined bias at `pre + c`: the `g`-th bias at `c`. -/
theorem bcat_piece (g : Nat) (hg : g < 4) (b : FVec Ideal S2048 .f32)
    (hb : [(⟨S2048, x4⟩ : (s : Shape) × (s.Idx → Ideal .f32)), ⟨S2048, x6⟩, ⟨S2048, x8⟩, ⟨S2048, x10⟩][g]'hg = ⟨S2048, b⟩)
    (pre : Nat) (hpre : 2048 * g = pre) (j : S8192.Idx) (i : S2048.Idx)
    (hi : pre + (i 0).val = (j 0).val) :
    val_main_v2 (F := Ideal) x4 x6 x8 x10 j = b i := by
  unfold val_main_v2
  refine concatenate_apply_piece (0 : Fin S8192.rank)
    [(⟨S2048, x4⟩ : (s : Shape) × (s.Idx → Ideal .f32)), ⟨S2048, x6⟩, ⟨S2048, x8⟩, ⟨S2048, x10⟩]
    concatenates_S2048_S2048_S2048_S2048_S8192_d0 j g hg S2048 b hb rfl pre ?_ i ?_ hi
  · subst hpre
    interval_cases g <;> rfl
  · intro a ha
    match a with
    | ⟨0, _⟩ => exact absurd rfl ha

/-- The first column band is the forget gate's pre-activation. -/
theorem band_forget : val_main_v7 (F := Ideal) x0 x1 x3 x4 x5 x6 x7 x8 x9 x10 = Lstm.gate x0 x1 x3 x4 := by
  funext i
  rw [val_main_v7_apply, val_main_v6_apply, val_main_v3_apply, val_main_v5_apply, val_main_v4_apply]
  unfold Lstm.gate Lstm.gateAt
  have h0 : (i 0).val < 8192 := idx2_lt0 i
  have h1 : (i 1).val < 2048 := idx2_lt1 i
  congr 1
  · refine Finset.sum_congr rfl fun k _ => ?_
    have el : lidx_main_v3 (idx_main_v7 i) k = ix2 (⟨(i 0).val, h0⟩ : Fin 8192) (⟨k.val, k.isLt⟩ : Fin 4096) :=
      funext fun a => Fin.ext (by match a with | ⟨0, _⟩ => rfl | ⟨1, _⟩ => rfl)
    unfold Lstm.term
    rw [dif_pos k.isLt, val_main_v0_apply, el,
      wcat_piece x3 x5 x7 x9 0 (by decide) x3 rfl 0 (by decide) (ridx_main_v3 (idx_main_v7 i) k)
        (ix2 (⟨k.val, k.isLt⟩ : Fin 4096) (⟨(i 1).val, h1⟩ : Fin 2048)) rfl (by first | rfl | exact Nat.zero_add _)]
    rfl
  · exact bcat_piece x4 x6 x8 x10 0 (by decide) x4 rfl 0 (by decide) _ (ix1 (⟨(i 1).val, h1⟩ : Fin 2048))
      (by first | rfl | exact Nat.zero_add _)

/-- The second band is the candidate's. -/
theorem band_cand : val_main_v8 (F := Ideal) x0 x1 x3 x4 x5 x6 x7 x8 x9 x10 = Lstm.gate x0 x1 x5 x6 := by
  funext i
  rw [val_main_v8_apply, val_main_v6_apply, val_main_v3_apply, val_main_v5_apply, val_main_v4_apply]
  unfold Lstm.gate Lstm.gateAt
  have h0 : (i 0).val < 8192 := idx2_lt0 i
  have h1 : (i 1).val < 2048 := idx2_lt1 i
  congr 1
  · refine Finset.sum_congr rfl fun k _ => ?_
    have el : lidx_main_v3 (idx_main_v8 i) k = ix2 (⟨(i 0).val, h0⟩ : Fin 8192) (⟨k.val, k.isLt⟩ : Fin 4096) :=
      funext fun a => Fin.ext (by match a with | ⟨0, _⟩ => rfl | ⟨1, _⟩ => rfl)
    unfold Lstm.term
    rw [dif_pos k.isLt, val_main_v0_apply, el,
      wcat_piece x3 x5 x7 x9 1 (by decide) x5 rfl 2048 (by decide) (ridx_main_v3 (idx_main_v8 i) k)
        (ix2 (⟨k.val, k.isLt⟩ : Fin 4096) (⟨(i 1).val, h1⟩ : Fin 2048)) rfl (by first | rfl | exact Nat.zero_add _)]
    rfl
  · exact bcat_piece x4 x6 x8 x10 1 (by decide) x6 rfl 2048 (by decide) _ (ix1 (⟨(i 1).val, h1⟩ : Fin 2048))
      (by first | rfl | exact Nat.zero_add _)

/-- The third band is the input gate's. -/
theorem band_input : val_main_v9 (F := Ideal) x0 x1 x3 x4 x5 x6 x7 x8 x9 x10 = Lstm.gate x0 x1 x7 x8 := by
  funext i
  rw [val_main_v9_apply, val_main_v6_apply, val_main_v3_apply, val_main_v5_apply, val_main_v4_apply]
  unfold Lstm.gate Lstm.gateAt
  have h0 : (i 0).val < 8192 := idx2_lt0 i
  have h1 : (i 1).val < 2048 := idx2_lt1 i
  congr 1
  · refine Finset.sum_congr rfl fun k _ => ?_
    have el : lidx_main_v3 (idx_main_v9 i) k = ix2 (⟨(i 0).val, h0⟩ : Fin 8192) (⟨k.val, k.isLt⟩ : Fin 4096) :=
      funext fun a => Fin.ext (by match a with | ⟨0, _⟩ => rfl | ⟨1, _⟩ => rfl)
    unfold Lstm.term
    rw [dif_pos k.isLt, val_main_v0_apply, el,
      wcat_piece x3 x5 x7 x9 2 (by decide) x7 rfl 4096 (by decide) (ridx_main_v3 (idx_main_v9 i) k)
        (ix2 (⟨k.val, k.isLt⟩ : Fin 4096) (⟨(i 1).val, h1⟩ : Fin 2048)) rfl (by first | rfl | exact Nat.zero_add _)]
    rfl
  · exact bcat_piece x4 x6 x8 x10 2 (by decide) x8 rfl 4096 (by decide) _ (ix1 (⟨(i 1).val, h1⟩ : Fin 2048))
      (by first | rfl | exact Nat.zero_add _)

/-- The fourth band is the output gate's. -/
theorem band_output : val_main_v10 (F := Ideal) x0 x1 x3 x4 x5 x6 x7 x8 x9 x10 = Lstm.gate x0 x1 x9 x10 := by
  funext i
  rw [val_main_v10_apply, val_main_v6_apply, val_main_v3_apply, val_main_v5_apply, val_main_v4_apply]
  unfold Lstm.gate Lstm.gateAt
  have h0 : (i 0).val < 8192 := idx2_lt0 i
  have h1 : (i 1).val < 2048 := idx2_lt1 i
  congr 1
  · refine Finset.sum_congr rfl fun k _ => ?_
    have el : lidx_main_v3 (idx_main_v10 i) k = ix2 (⟨(i 0).val, h0⟩ : Fin 8192) (⟨k.val, k.isLt⟩ : Fin 4096) :=
      funext fun a => Fin.ext (by match a with | ⟨0, _⟩ => rfl | ⟨1, _⟩ => rfl)
    unfold Lstm.term
    rw [dif_pos k.isLt, val_main_v0_apply, el,
      wcat_piece x3 x5 x7 x9 3 (by decide) x9 rfl 6144 (by decide) (ridx_main_v3 (idx_main_v10 i) k)
        (ix2 (⟨k.val, k.isLt⟩ : Fin 4096) (⟨(i 1).val, h1⟩ : Fin 2048)) rfl (by first | rfl | exact Nat.zero_add _)]
    rfl
  · exact bcat_piece x4 x6 x8 x10 3 (by decide) x10 rfl 6144 (by decide) _ (ix1 (⟨(i 1).val, h1⟩ : Fin 2048))
      (by first | rfl | exact Nat.zero_add _)

/-- The literal one, broadcast, is one everywhere. -/
theorem ones (i : S8192x2048.Idx) :
    broadcastInDim S8192x2048 ![] bcast_S_S8192x2048 (constant (F := Ideal) S_ .f32 0x3F800000#32) i = 1 :=
  Lstm.one_word

/-- The reference's first result is the output gate. -/
theorem out_eq : val_main_v38 (F := Ideal) x0 x1 x3 x4 x5 x6 x7 x8 x9 x10 = Lstm.outGate (Lstm.gate x0 x1 x9 x10) := by
  unfold val_main_v38 val_main_v37 val_main_v36 val_main_v35 val_main_v34 val_main_v33 val_main_cst_5 val_main_cst_6
  rw [band_output, Lstm.spelled_sigmoid _ _ _ ones ones]
  rfl

/-- The reference's third result is the new cell state. -/
theorem cell_eq : val_main_v32 (F := Ideal) x0 x1 x2 x3 x4 x5 x6 x7 x8 x9 x10
    = Lstm.cellNext (Lstm.gate x0 x1 x3 x4) (Lstm.gate x0 x1 x5 x6) (Lstm.gate x0 x1 x7 x8) x2 := by
  unfold val_main_v32 val_main_v31 val_main_v30 val_main_v29 val_main_v28 val_main_v27 val_main_v26 val_main_v25 val_main_v24
    val_main_v23 val_main_v22 val_main_v21 val_main_v20 val_main_v19 val_main_v18 val_main_v17 val_main_v16 val_main_v15
    val_main_v14 val_main_v13 val_main_v12 val_main_v11 val_main_cst val_main_cst_0 val_main_cst_1 val_main_cst_2
    val_main_cst_3 val_main_cst_4
  rw [band_forget, band_cand, band_input, Lstm.spelled_sigmoid _ _ _ ones ones, Lstm.spelled_sigmoid _ _ _ ones ones,
    Lstm.spelled_sigmoid _ _ _ ones ones, Lstm.host_tanh]
  rfl

/-- The reference's second result is the new hidden state. -/
theorem hid_eq : val_main_v40 (F := Ideal) x0 x1 x2 x3 x4 x5 x6 x7 x8 x9 x10
    = Lstm.hidNext (Lstm.gate x0 x1 x3 x4) (Lstm.gate x0 x1 x5 x6) (Lstm.gate x0 x1 x7 x8) (Lstm.gate x0 x1 x9 x10) x2 := by
  unfold val_main_v40 val_main_v39
  rw [out_eq, cell_eq, Lstm.host_tanh]
  rfl

end Cert.ReferenceIdeal.RefValue
-- ==== Proof.Pieces.lean ====
/-
  What each control case of the kernel body leaves behind, as values.

  The body has three cases along the reduction axis of the grid. At the first step of a run it stores zero into each of
  the four accumulators and then adds that step's product into it; at a middle step it adds the step's product to what
  the accumulator held; at the last step it does the same and then writes the three result blocks from the four
  accumulators just updated, the bias rows and the old cell block. Each accumulator and each result block is stored
  whole, so what the case leaves is the stored value itself, with every load of an input window read as the window's
  block and every load of an accumulator read as the value the same step stored there (or, before any store, the value
  the step before left).
-/
import proofs.«170384_j37924561224179_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- First step of a run, forget accumulator: zero, then this step's product added. -/
theorem first_0 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (hc0 : cond0_0 i) (hc1 : ¬cond0_1 i) (x0 x1 x2 x3 x4 x5 : Vec F S512x512 .f32) (x6 x7 x8 x9 : Vec F S1x512 .f32) (x10 : Vec F S512x512 .f32) :
    sout0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 = k0_pay13 x0 x1 x2 k0_pay6 := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x512) hz, View.ld_unit_zero (S := S1x512) hz, View.readCov_unit_zero (S := S512x512) _ hz]

/-- Middle step, forget accumulator: this step's product added to what the step before left. -/
theorem middle_0 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (hc0 : ¬cond0_0 i) (hc1 : ¬cond0_1 i) (x0 x1 x2 x3 x4 x5 : Vec F S512x512 .f32) (x6 x7 x8 x9 : Vec F S1x512 .f32) (x10 : Vec F S512x512 .f32) (a0 a1 a2 a3 : Vec F S512x512 .f32) :
    sout0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3 = k0_pay13 x0 x1 x2 a0 := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x512) hz, View.ld_unit_zero (S := S1x512) hz, View.readCov_unit_zero (S := S512x512) _ hz]

/-- Last step, forget accumulator: the same. -/
theorem last_0 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (hc0 : ¬cond0_0 i) (hc1 : cond0_1 i) (x0 x1 x2 x3 x4 x5 : Vec F S512x512 .f32) (x6 x7 x8 x9 : Vec F S1x512 .f32) (x10 : Vec F S512x512 .f32) (a0 a1 a2 a3 : Vec F S512x512 .f32) :
    sout0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3 = k0_pay13 x0 x1 x2 a0 := by
  unfold sout0_C_0
  rw [View.read_writes_eq_canon _ _ _ (scover0_C_0 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x512) hz, View.ld_unit_zero (S := S1x512) hz, View.readCov_unit_zero (S := S512x512) _ hz]

/-- First step of a run, candidate accumulator: zero, then this step's product added. -/
theorem first_1 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (hc0 : cond0_0 i) (hc1 : ¬cond0_1 i) (x0 x1 x2 x3 x4 x5 : Vec F S512x512 .f32) (x6 x7 x8 x9 : Vec F S1x512 .f32) (x10 : Vec F S512x512 .f32) :
    sout0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 = k0_pay14 x0 x1 x3 k0_pay7 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x512) hz, View.ld_unit_zero (S := S1x512) hz, View.readCov_unit_zero (S := S512x512) _ hz]

/-- Middle step, candidate accumulator: this step's product added to what the step before left. -/
theorem middle_1 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (hc0 : ¬cond0_0 i) (hc1 : ¬cond0_1 i) (x0 x1 x2 x3 x4 x5 : Vec F S512x512 .f32) (x6 x7 x8 x9 : Vec F S1x512 .f32) (x10 : Vec F S512x512 .f32) (a0 a1 a2 a3 : Vec F S512x512 .f32) :
    sout0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3 = k0_pay14 x0 x1 x3 a1 := by
  unfold sout0_B_1
  rw [View.read_writes_eq_canon _ _ _ (scover0_B_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x512) hz, View.ld_unit_zero (S := S1x512) hz, View.readCov_unit_zero (S := S512x512) _ hz]

/-- Last step, candidate accumulator: the same. -/
theorem last_1 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (hc0 : ¬cond0_0 i) (hc1 : cond0_1 i) (x0 x1 x2 x3 x4 x5 : Vec F S512x512 .f32) (x6 x7 x8 x9 : Vec F S1x512 .f32) (x10 : Vec F S512x512 .f32) (a0 a1 a2 a3 : Vec F S512x512 .f32) :
    sout0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3 = k0_pay14 x0 x1 x3 a1 := by
  unfold sout0_C_1
  rw [View.read_writes_eq_canon _ _ _ (scover0_C_1 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x512) hz, View.ld_unit_zero (S := S1x512) hz, View.readCov_unit_zero (S := S512x512) _ hz]

/-- First step of a run, input accumulator: zero, then this step's product added. -/
theorem first_2 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (hc0 : cond0_0 i) (hc1 : ¬cond0_1 i) (x0 x1 x2 x3 x4 x5 : Vec F S512x512 .f32) (x6 x7 x8 x9 : Vec F S1x512 .f32) (x10 : Vec F S512x512 .f32) :
    sout0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 = k0_pay1 (k0_pay10 x0 x1) (k0_pay11 x4) k0_pay8 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x512) hz, View.ld_unit_zero (S := S1x512) hz, View.readCov_unit_zero (S := S512x512) _ hz]

/-- Middle step, input accumulator: this step's product added to what the step before left. -/
theorem middle_2 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (hc0 : ¬cond0_0 i) (hc1 : ¬cond0_1 i) (x0 x1 x2 x3 x4 x5 : Vec F S512x512 .f32) (x6 x7 x8 x9 : Vec F S1x512 .f32) (x10 : Vec F S512x512 .f32) (a0 a1 a2 a3 : Vec F S512x512 .f32) :
    sout0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3 = k0_pay1 (k0_pay10 x0 x1) (k0_pay11 x4) a2 := by
  unfold sout0_B_2
  rw [View.read_writes_eq_canon _ _ _ (scover0_B_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x512) hz, View.ld_unit_zero (S := S1x512) hz, View.readCov_unit_zero (S := S512x512) _ hz]

/-- Last step, input accumulator: the same. -/
theorem last_2 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (hc0 : ¬cond0_0 i) (hc1 : cond0_1 i) (x0 x1 x2 x3 x4 x5 : Vec F S512x512 .f32) (x6 x7 x8 x9 : Vec F S1x512 .f32) (x10 : Vec F S512x512 .f32) (a0 a1 a2 a3 : Vec F S512x512 .f32) :
    sout0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3 = k0_pay1 (k0_pay10 x0 x1) (k0_pay11 x4) a2 := by
  unfold sout0_C_2
  rw [View.read_writes_eq_canon _ _ _ (scover0_C_2 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x512) hz, View.ld_unit_zero (S := S1x512) hz, View.readCov_unit_zero (S := S512x512) _ hz]

/-- First step of a run, output accumulator: zero, then this step's product added. -/
theorem first_3 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (hc0 : cond0_0 i) (hc1 : ¬cond0_1 i) (x0 x1 x2 x3 x4 x5 : Vec F S512x512 .f32) (x6 x7 x8 x9 : Vec F S1x512 .f32) (x10 : Vec F S512x512 .f32) :
    sout0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 = k0_pay2 (k0_pay10 x0 x1) (k0_pay12 x5) k0_pay9 := by
  unfold sout0_A_3
  rw [View.read_writes_eq_canon _ _ _ (scover0_A_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10)]
  unfold kernelRun0_A
  dsimp only
  sl_unfold_words
  rw [View.canon_cons_unit_zero (S := S512x512) hz, View.readCov_unit_zero (S := S512x512) _ hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x512) hz, View.ld_unit_zero (S := S1x512) hz, View.readCov_unit_zero (S := S512x512) _ hz]

/-- Middle step, output accumulator: this step's product added to what the step before left. -/
theorem middle_3 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (hc0 : ¬cond0_0 i) (hc1 : ¬cond0_1 i) (x0 x1 x2 x3 x4 x5 : Vec F S512x512 .f32) (x6 x7 x8 x9 : Vec F S1x512 .f32) (x10 : Vec F S512x512 .f32) (a0 a1 a2 a3 : Vec F S512x512 .f32) :
    sout0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3 = k0_pay2 (k0_pay10 x0 x1) (k0_pay12 x5) a3 := by
  unfold sout0_B_3
  rw [View.read_writes_eq_canon _ _ _ (scover0_B_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3)]
  unfold kernelRun0_B
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x512) hz, View.ld_unit_zero (S := S1x512) hz, View.readCov_unit_zero (S := S512x512) _ hz]

/-- Last step, output accumulator: the same. -/
theorem last_3 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (hc0 : ¬cond0_0 i) (hc1 : cond0_1 i) (x0 x1 x2 x3 x4 x5 : Vec F S512x512 .f32) (x6 x7 x8 x9 : Vec F S1x512 .f32) (x10 : Vec F S512x512 .f32) (a0 a1 a2 a3 : Vec F S512x512 .f32) :
    sout0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3 = k0_pay2 (k0_pay10 x0 x1) (k0_pay12 x5) a3 := by
  unfold sout0_C_3
  rw [View.read_writes_eq_canon _ _ _ (scover0_C_3 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x512) hz, View.ld_unit_zero (S := S1x512) hz, View.readCov_unit_zero (S := S512x512) _ hz]

/-- Last step, result window 11: the output gate of the output accumulator just updated and its bias row. -/
theorem result_11 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (hc0 : ¬cond0_0 i) (hc1 : cond0_1 i) (x0 x1 x2 x3 x4 x5 : Vec F S512x512 .f32) (x6 x7 x8 x9 : Vec F S1x512 .f32) (x10 : Vec F S512x512 .f32) (a0 a1 a2 a3 : Vec F S512x512 .f32) :
    out0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3 = k0_pay4 (k0_pay2 (k0_pay10 x0 x1) (k0_pay12 x5) a3) x9 := by
  unfold out0_C_11
  rw [View.read_writes_eq_canon _ _ _ (cover0_C_11 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x512) hz, View.ld_unit_zero (S := S1x512) hz, View.readCov_unit_zero (S := S512x512) _ hz]

/-- Last step, result window 12: the new hidden state from all four accumulators just updated, the bias rows and the old cell block. -/
theorem result_12 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (hc0 : ¬cond0_0 i) (hc1 : cond0_1 i) (x0 x1 x2 x3 x4 x5 : Vec F S512x512 .f32) (x6 x7 x8 x9 : Vec F S1x512 .f32) (x10 : Vec F S512x512 .f32) (a0 a1 a2 a3 : Vec F S512x512 .f32) :
    out0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3 = k0_pay5 (k0_pay13 x0 x1 x2 a0) x6 (k0_pay14 x0 x1 x3 a1) x7 (k0_pay1 (k0_pay10 x0 x1) (k0_pay11 x4) a2) x8 (k0_pay2 (k0_pay10 x0 x1) (k0_pay12 x5) a3) x9 x10 := by
  unfold out0_C_12
  rw [View.read_writes_eq_canon _ _ _ (cover0_C_12 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x512) hz, View.ld_unit_zero (S := S1x512) hz, View.readCov_unit_zero (S := S512x512) _ hz]

/-- Last step, result window 13: the new cell state from the forget, candidate and input accumulators just updated, their bias rows and the old cell block. -/
theorem result_13 (c : Dev nD) (i : grid0.Coords) (arg3 : Memref sig .tc .vmem S512x512 .f32) (harg3 : arg3.IsWhole) (arg4 : Memref sig .tc .vmem S512x512 .f32) (harg4 : arg4.IsWhole) (arg5 : Memref sig .tc .vmem S512x512 .f32) (harg5 : arg5.IsWhole) (arg6 : Memref sig .tc .vmem S512x512 .f32) (harg6 : arg6.IsWhole) (arg7 : Memref sig .tc .vmem S512x512 .f32) (harg7 : arg7.IsWhole) (arg8 : Memref sig .tc .vmem S512x512 .f32) (harg8 : arg8.IsWhole) (arg9 : Memref sig .tc .vmem S1x512 .f32) (harg9 : arg9.IsWhole) (arg10 : Memref sig .tc .vmem S1x512 .f32) (harg10 : arg10.IsWhole) (arg11 : Memref sig .tc .vmem S1x512 .f32) (harg11 : arg11.IsWhole) (arg12 : Memref sig .tc .vmem S1x512 .f32) (harg12 : arg12.IsWhole) (arg13 : Memref sig .tc .vmem S512x512 .f32) (harg13 : arg13.IsWhole) (arg14 : Memref sig .tc .vmem S512x512 .f32) (harg14 : arg14.IsWhole) (arg15 : Memref sig .tc .vmem S512x512 .f32) (harg15 : arg15.IsWhole) (arg16 : Memref sig .tc .vmem S512x512 .f32) (harg16 : arg16.IsWhole) (arg17 : Memref sig .tc .vmem S512x512 .f32) (harg17 : arg17.IsWhole) (arg18 : Memref sig .tc .vmem S512x512 .f32) (harg18 : arg18.IsWhole) (arg19 : Memref sig .tc .vmem S512x512 .f32) (harg19 : arg19.IsWhole) (arg20 : Memref sig .tc .vmem S512x512 .f32) (harg20 : arg20.IsWhole) (hc0 : ¬cond0_0 i) (hc1 : cond0_1 i) (x0 x1 x2 x3 x4 x5 : Vec F S512x512 .f32) (x6 x7 x8 x9 : Vec F S1x512 .f32) (x10 : Vec F S512x512 .f32) (a0 a1 a2 a3 : Vec F S512x512 .f32) :
    out0_C_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3 = k0_pay3 (k0_pay13 x0 x1 x2 a0) x6 (k0_pay14 x0 x1 x3 a1) x7 (k0_pay1 (k0_pay10 x0 x1) (k0_pay11 x4) a2) x8 x10 := by
  unfold out0_C_13
  rw [View.read_writes_eq_canon _ _ _ (cover0_C_13 c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 x10 a0 a1 a2 a3)]
  unfold kernelRun0_C
  dsimp only
  sl_unfold_words
  rw [View.canon_unit_zero hz]
  simp only [View.readAt_eq_ld, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, View.ld_unit_zero (S := S512x512) hz, View.ld_unit_zero (S := S1x512) hz, View.readCov_unit_zero (S := S512x512) _ hz]

end Cert.KernelIdeal.Pieces
-- ==== Proof.KernelEntry.lean ====
/-
  The kernel body's arithmetic, read at one entry of a [512, 512] block, on the extended reals.

  One accumulation step adds to the accumulator's entry `(p, q)` the product of row `p` of the block of `x + h` with
  column `q` of the block of the gate's weights: a sum over the block's 512 contraction indices (the narrowing of both
  operands to bf16 is the identity on the extended reals, and the matrix unit starts from a zero accumulator). The
  epilogue adds each gate's bias row to its accumulator and applies the cell update pointwise.
-/
import proofs.«170384_j37924561224179_1_alg».proof.Proof.Gen.KernelIdeal.Skeleton
import proofs.«170384_j37924561224179_1_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

open scoped BigOperators

namespace Cert.KernelIdeal.Entry

open Cert.KernelIdeal Cert.KernelIdeal.Gen Idealize.ShloMosaic Idealize.ShloMosaic.ValueIdx

/-- Row `p` of the block of `x + h` against column `q` of a weight block. -/
def dotAt (x h w : Vec Ideal S512x512 .f32) (p q : Fin 512) : EReal :=
  ∑ k : Fin 512, (x (ix2 p k) + h (ix2 p k)) * w (ix2 k q)

theorem lhs_0 (i : S512x512.Idx) (z : dot_S512x512_S512x512_S512x512_1_0_0_1_n_n.contr.Idx) : (dot_S512x512_S512x512_S512x512_1_0_0_1_n_n.lhsIdx i z 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_1 (i : S512x512.Idx) (z : dot_S512x512_S512x512_S512x512_1_0_0_1_n_n.contr.Idx) : (dot_S512x512_S512x512_S512x512_1_0_0_1_n_n.lhsIdx i z 1).val = (z ⟨0, by decide⟩).val :=
  dot_S512x512_S512x512_S512x512_1_0_0_1_n_n.lhsIdx_val_of_single rfl i z
theorem rhs_0 (i : S512x512.Idx) (z : dot_S512x512_S512x512_S512x512_1_0_0_1_n_n.contr.Idx) : (dot_S512x512_S512x512_S512x512_1_0_0_1_n_n.rhsIdx i z 0).val = (z ⟨0, by decide⟩).val :=
  dot_S512x512_S512x512_S512x512_1_0_0_1_n_n.rhsIdx_val_of_single rfl i z
theorem rhs_1 (i : S512x512.Idx) (z : dot_S512x512_S512x512_S512x512_1_0_0_1_n_n.contr.Idx) : (dot_S512x512_S512x512_S512x512_1_0_0_1_n_n.rhsIdx i z 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The matrix unit's product of the narrowed `x + h` block with a narrowed weight block, into zero, at `(p, q)`. -/
theorem mxu_apply (x h w : Vec Ideal S512x512 .f32) (p q : Fin 512) :
    matmul dot_S512x512_S512x512_S512x512_1_0_0_1_n_n none (k0_pay10 (F := Ideal) x h) (truncf .bf16 w bitsLt_bf16_f32 : FVec Ideal S512x512 .bf16)
      (constant (F := Ideal) S512x512 .f32 0x00000000#32) (ix2 p q) = dotAt x h w p q := by
  simp only [matmul]
  rw [Ideal.matmul_constant_zero_apply, ← Equiv.sum_comp (ValueIdx.contrEquiv1 dot_S512x512_S512x512_S512x512_1_0_0_1_n_n 512 rfl rfl).symm]
  unfold dotAt
  refine Finset.sum_congr rfl fun k _ => ?_
  have hk := ValueIdx.contrEquiv1_symm_val dot_S512x512_S512x512_S512x512_1_0_0_1_n_n 512 rfl rfl k
  have el : dot_S512x512_S512x512_S512x512_1_0_0_1_n_n.lhsIdx (ix2 p q) ((ValueIdx.contrEquiv1 dot_S512x512_S512x512_S512x512_1_0_0_1_n_n 512 rfl rfl).symm k) = ix2 p k := funext fun a => Fin.ext (by
    match a with
    | ⟨0, _⟩ => exact lhs_0 _ _
    | ⟨1, _⟩ => exact (lhs_1 _ _).trans hk)
  have er : dot_S512x512_S512x512_S512x512_1_0_0_1_n_n.rhsIdx (ix2 p q) ((ValueIdx.contrEquiv1 dot_S512x512_S512x512_S512x512_1_0_0_1_n_n 512 rfl rfl).symm k) = ix2 k q := funext fun a => Fin.ext (by
    match a with
    | ⟨0, _⟩ => exact (rhs_0 _ _).trans hk
    | ⟨1, _⟩ => exact rhs_1 _ _)
  rw [el, er]
  rfl

/-- The forget gate's accumulation step at `(p, q)`. -/
theorem pay13_apply (x h w a : Vec Ideal S512x512 .f32) (p q : Fin 512) :
    k0_pay13 (F := Ideal) x h w a (ix2 p q) = a (ix2 p q) + dotAt x h w p q := by
  unfold k0_pay13
  simp only [shapeCast_self]
  exact congrArg (a (ix2 p q) + ·) (mxu_apply x h w p q)

/-- The candidate's. -/
theorem pay14_apply (x h w a : Vec Ideal S512x512 .f32) (p q : Fin 512) :
    k0_pay14 (F := Ideal) x h w a (ix2 p q) = a (ix2 p q) + dotAt x h w p q := by
  unfold k0_pay14
  simp only [shapeCast_self]
  exact congrArg (a (ix2 p q) + ·) (mxu_apply x h w p q)

/-- The input gate's (its operands arrive already narrowed). -/
theorem pay1_apply (x h w a : Vec Ideal S512x512 .f32) (p q : Fin 512) :
    k0_pay1 (F := Ideal) (k0_pay10 x h) (k0_pay11 w) a (ix2 p q) = a (ix2 p q) + dotAt x h w p q := by
  unfold k0_pay1 k0_pay11
  simp only [shapeCast_self]
  exact congrArg (a (ix2 p q) + ·) (mxu_apply x h w p q)

/-- The output gate's. -/
theorem pay2_apply (x h w a : Vec Ideal S512x512 .f32) (p q : Fin 512) :
    k0_pay2 (F := Ideal) (k0_pay10 x h) (k0_pay12 w) a (ix2 p q) = a (ix2 p q) + dotAt x h w p q := by
  unfold k0_pay2 k0_pay12
  simp only [shapeCast_self]
  exact congrArg (a (ix2 p q) + ·) (mxu_apply x h w p q)

/-- The four reset values are zero everywhere. -/
theorem pay6_apply (y : S512x512.Idx) : k0_pay6 (F := Ideal) y = 0 := by
  unfold k0_pay6; simp only [shapeCast_self]; exact Lstm.zero_word
theorem pay7_apply (y : S512x512.Idx) : k0_pay7 (F := Ideal) y = 0 := by
  unfold k0_pay7; simp only [shapeCast_self]; exact Lstm.zero_word
theorem pay8_apply (y : S512x512.Idx) : k0_pay8 (F := Ideal) y = 0 := by
  unfold k0_pay8; simp only [shapeCast_self]; exact Lstm.zero_word
theorem pay9_apply (y : S512x512.Idx) : k0_pay9 (F := Ideal) y = 0 := by
  unfold k0_pay9; simp only [shapeCast_self]; exact Lstm.zero_word

/-- A bias row [1, 512] spread over the 512 rows of a block, added to an accumulator: entry `(p, q)` gets the bias's
    entry `q`. -/
def biased (a : Vec Ideal S512x512 .f32) (b : Vec Ideal S1x512 .f32) : FVec Ideal S512x512 .f32 :=
  addf a (broadcastTo S512x512 (shapeCast S1x512 b shapeCasts_S1x512_S1x512) broadcasts_S1x512_S512x512)

/-- The epilogue's three stored blocks are the cell update of the four biased accumulators and the old cell block. -/
theorem pay3_eq (af : Vec Ideal S512x512 .f32) (bf : Vec Ideal S1x512 .f32) (ac : Vec Ideal S512x512 .f32) (bc : Vec Ideal S1x512 .f32)
    (ai : Vec Ideal S512x512 .f32) (bi : Vec Ideal S1x512 .f32) (cell : Vec Ideal S512x512 .f32) :
    k0_pay3 (F := Ideal) af bf ac bc ai bi cell = Lstm.cellNext (biased af bf) (biased ac bc) (biased ai bi) cell := rfl

theorem pay4_eq (ao : Vec Ideal S512x512 .f32) (bo : Vec Ideal S1x512 .f32) :
    k0_pay4 (F := Ideal) ao bo = Lstm.outGate (biased ao bo) := rfl

theorem pay5_eq (af : Vec Ideal S512x512 .f32) (bf : Vec Ideal S1x512 .f32) (ac : Vec Ideal S512x512 .f32) (bc : Vec Ideal S1x512 .f32)
    (ai : Vec Ideal S512x512 .f32) (bi : Vec Ideal S1x512 .f32) (ao : Vec Ideal S512x512 .f32) (bo : Vec Ideal S1x512 .f32)
    (cell : Vec Ideal S512x512 .f32) :
    k0_pay5 (F := Ideal) af bf ac bc ai bi ao bo cell
      = Lstm.hidNext (biased af bf) (biased ac bc) (biased ai bi) (biased ao bo) cell := rfl

/-- A biased accumulator at `(p, q)`. -/
theorem biased_apply (a : Vec Ideal S512x512 .f32) (b : Vec Ideal S1x512 .f32) (p q : Fin 512) :
    biased a b (ix2 p q) = a (ix2 p q) + b (ix2 (0 : Fin 1) q) := by
  unfold biased
  simp only [shapeCast_self]
  rw [addf_apply]
  exact congrArg (a (ix2 p q) + ·) (broadcastTo_1b_ab_apply b broadcasts_S1x512_S512x512 p q)

end Cert.KernelIdeal.Entry
-- ==== Proof.Blocks.lean ====
/-
  Where each window's block sits in its array.

  The grid is 16 x 4 x 8: point `t` is row tile `t / 32`, column tile `(t / 8) % 4`, reduction step `t % 8`. The blocks
  of `x` and `h` move with (row tile, step), those of the four weight matrices with (step, column tile), the bias rows
  with the column tile, and the old cell state and the three results with (row tile, column tile). Entry `y` of a
  block is the array's entry at block index times 512 plus `y`, axis by axis. The four bias arrays reach the kernel
  reshaped from [2048] to [1, 2048], which moves nothing.
-/
import proofs.«170384_j37924561224179_1_alg».proof.Proof.Gen.KernelIdeal.Frame
import Idealize.ShloMosaic.Lib.Pipeline.Value
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable {F : FTy → Type} [FloatOps F]
variable (m : (ℓ : Loc nD τ sig) → Buf (Elt F) ℓ)

/-- The printed index maps in closed form, decided over the 512 grid points. -/
theorem idx_facts : ∀ t : Fin cfg0.N,
    (win0_0.index t (0 : Fin 2) = t.val / 32 ∧ win0_0.index t (1 : Fin 2) = t.val % 8)
    ∧ (win0_1.index t (0 : Fin 2) = t.val / 32 ∧ win0_1.index t (1 : Fin 2) = t.val % 8)
    ∧ (win0_2.index t (0 : Fin 2) = t.val % 8 ∧ win0_2.index t (1 : Fin 2) = t.val / 8 % 4)
    ∧ (win0_3.index t (0 : Fin 2) = t.val % 8 ∧ win0_3.index t (1 : Fin 2) = t.val / 8 % 4)
    ∧ (win0_4.index t (0 : Fin 2) = t.val % 8 ∧ win0_4.index t (1 : Fin 2) = t.val / 8 % 4)
    ∧ (win0_5.index t (0 : Fin 2) = t.val % 8 ∧ win0_5.index t (1 : Fin 2) = t.val / 8 % 4)
    ∧ (win0_6.index t (0 : Fin 2) = 0 ∧ win0_6.index t (1 : Fin 2) = t.val / 8 % 4)
    ∧ (win0_7.index t (0 : Fin 2) = 0 ∧ win0_7.index t (1 : Fin 2) = t.val / 8 % 4)
    ∧ (win0_8.index t (0 : Fin 2) = 0 ∧ win0_8.index t (1 : Fin 2) = t.val / 8 % 4)
    ∧ (win0_9.index t (0 : Fin 2) = 0 ∧ win0_9.index t (1 : Fin 2) = t.val / 8 % 4)
    ∧ (win0_10.index t (0 : Fin 2) = t.val / 32 ∧ win0_10.index t (1 : Fin 2) = t.val / 8 % 4)
    ∧ (win0_11.index t (0 : Fin 2) = t.val / 32 ∧ win0_11.index t (1 : Fin 2) = t.val / 8 % 4)
    ∧ (win0_12.index t (0 : Fin 2) = t.val / 32 ∧ win0_12.index t (1 : Fin 2) = t.val / 8 % 4)
    ∧ (win0_13.index t (0 : Fin 2) = t.val / 32 ∧ win0_13.index t (1 : Fin 2) = t.val / 8 % 4) :=
  (by decide +kernel : ∀ t : Fin grid0.N, _)

/-- Two rank-2 indices with the same coordinates are the same index. -/
theorem idx2_ext {n0 n1 : Nat} (j j' : (⟨2, ![n0, n1]⟩ : Shape).Idx) (h0 : (j 0).val = (j' 0).val)
    (h1 : (j 1).val = (j' 1).val) : j = j' :=
  funext fun a => Fin.ext (by match a with | ⟨0, _⟩ => exact h0 | ⟨1, _⟩ => exact h1)

/-- Entry `y` of `x`'s block at point `t`: row tile `t / 32`, reduction step `t % 8`. -/
theorem x_at (c : Dev nD) (t : Fin cfg0.N) (y : S512x512.Idx) (j : S8192x4096.Idx)
    (h0 : (j 0).val = 512 * (t.val / 32) + (y 0).val) (h1 : (j 1).val = 512 * (t.val % 8) + (y 1).val) :
    (iblk m c 0 t : Vec F S512x512 .f32) y = m ((c : Thread nD τ).loc main_arg0) j := by
  obtain ⟨⟨e0, e1⟩, -, -, -, -, -, -, -, -, -, -, -, -, -⟩ := idx_facts t
  show V m c main_arg0 (((cfg0.win 0).blk t).view.emb y) = _
  rw [V_main_arg0]
  refine congrArg _ (idx2_ext _ _ ?_ ?_)
  · show win0_0.index t (0 : Fin 2) * 512 + 1 * (y 0).val = (j 0).val
    rw [e0, h0]; omega
  · show win0_0.index t (1 : Fin 2) * 512 + 1 * (y 1).val = (j 1).val
    rw [e1, h1]; omega

/-- The same for `h`. -/
theorem h_at (c : Dev nD) (t : Fin cfg0.N) (y : S512x512.Idx) (j : S8192x4096.Idx)
    (h0 : (j 0).val = 512 * (t.val / 32) + (y 0).val) (h1 : (j 1).val = 512 * (t.val % 8) + (y 1).val) :
    (iblk m c 1 t : Vec F S512x512 .f32) y = m ((c : Thread nD τ).loc main_arg1) j := by
  obtain ⟨-, ⟨e0, e1⟩, -, -, -, -, -, -, -, -, -, -, -, -⟩ := idx_facts t
  show V m c main_arg1 (((cfg0.win 1).blk t).view.emb y) = _
  rw [V_main_arg1]
  refine congrArg _ (idx2_ext _ _ ?_ ?_)
  · show win0_1.index t (0 : Fin 2) * 512 + 1 * (y 0).val = (j 0).val
    rw [e0, h0]; omega
  · show win0_1.index t (1 : Fin 2) * 512 + 1 * (y 1).val = (j 1).val
    rw [e1, h1]; omega

/-- Entry `y` of the forget weights' block: reduction step `t % 8`, column tile `t / 8 % 4`. -/
theorem wf_at (c : Dev nD) (t : Fin cfg0.N) (y : S512x512.Idx) (j : S4096x2048.Idx)
    (h0 : (j 0).val = 512 * (t.val % 8) + (y 0).val) (h1 : (j 1).val = 512 * (t.val / 8 % 4) + (y 1).val) :
    (iblk m c 2 t : Vec F S512x512 .f32) y = m ((c : Thread nD τ).loc main_arg3) j := by
  obtain ⟨-, -, ⟨e0, e1⟩, -, -, -, -, -, -, -, -, -, -, -⟩ := idx_facts t
  show V m c main_arg3 (((cfg0.win 2).blk t).view.emb y) = _
  rw [V_main_arg3]
  refine congrArg _ (idx2_ext _ _ ?_ ?_)
  · show win0_2.index t (0 : Fin 2) * 512 + 1 * (y 0).val = (j 0).val
    rw [e0, h0]; omega
  · show win0_2.index t (1 : Fin 2) * 512 + 1 * (y 1).val = (j 1).val
    rw [e1, h1]; omega

/-- The candidate weights'. -/
theorem wc_at (c : Dev nD) (t : Fin cfg0.N) (y : S512x512.Idx) (j : S4096x2048.Idx)
    (h0 : (j 0).val = 512 * (t.val % 8) + (y 0).val) (h1 : (j 1).val = 512 * (t.val / 8 % 4) + (y 1).val) :
    (iblk m c 3 t : Vec F S512x512 .f32) y = m ((c : Thread nD τ).loc main_arg5) j := by
  obtain ⟨-, -, -, ⟨e0, e1⟩, -, -, -, -, -, -, -, -, -, -⟩ := idx_facts t
  show V m c main_arg5 (((cfg0.win 3).blk t).view.emb y) = _
  rw [V_main_arg5]
  refine congrArg _ (idx2_ext _ _ ?_ ?_)
  · show win0_3.index t (0 : Fin 2) * 512 + 1 * (y 0).val = (j 0).val
    rw [e0, h0]; omega
  · show win0_3.index t (1 : Fin 2) * 512 + 1 * (y 1).val = (j 1).val
    rw [e1, h1]; omega

/-- The input gate weights'. -/
theorem wi_at (c : Dev nD) (t : Fin cfg0.N) (y : S512x512.Idx) (j : S4096x2048.Idx)
    (h0 : (j 0).val = 512 * (t.val % 8) + (y 0).val) (h1 : (j 1).val = 512 * (t.val / 8 % 4) + (y 1).val) :
    (iblk m c 4 t : Vec F S512x512 .f32) y = m ((c : Thread nD τ).loc main_arg7) j := by
  obtain ⟨-, -, -, -, ⟨e0, e1⟩, -, -, -, -, -, -, -, -, -⟩ := idx_facts t
  show V m c main_arg7 (((cfg0.win 4).blk t).view.emb y) = _
  rw [V_main_arg7]
  refine congrArg _ (idx2_ext _ _ ?_ ?_)
  · show win0_4.index t (0 : Fin 2) * 512 + 1 * (y 0).val = (j 0).val
    rw [e0, h0]; omega
  · show win0_4.index t (1 : Fin 2) * 512 + 1 * (y 1).val = (j 1).val
    rw [e1, h1]; omega

/-- The output gate weights'. -/
theorem wo_at (c : Dev nD) (t : Fin cfg0.N) (y : S512x512.Idx) (j : S4096x2048.Idx)
    (h0 : (j 0).val = 512 * (t.val % 8) + (y 0).val) (h1 : (j 1).val = 512 * (t.val / 8 % 4) + (y 1).val) :
    (iblk m c 5 t : Vec F S512x512 .f32) y = m ((c : Thread nD τ).loc main_arg9) j := by
  obtain ⟨-, -, -, -, -, ⟨e0, e1⟩, -, -, -, -, -, -, -, -⟩ := idx_facts t
  show V m c main_arg9 (((cfg0.win 5).blk t).view.emb y) = _
  rw [V_main_arg9]
  refine congrArg _ (idx2_ext _ _ ?_ ?_)
  · show win0_5.index t (0 : Fin 2) * 512 + 1 * (y 0).val = (j 0).val
    rw [e0, h0]; omega
  · show win0_5.index t (1 : Fin 2) * 512 + 1 * (y 1).val = (j 1).val
    rw [e1, h1]; omega

/-- Entry `y` of the old cell state's block: row tile, column tile. -/
theorem cell_at (c : Dev nD) (t : Fin cfg0.N) (y : S512x512.Idx) (j : S8192x2048.Idx)
    (h0 : (j 0).val = 512 * (t.val / 32) + (y 0).val) (h1 : (j 1).val = 512 * (t.val / 8 % 4) + (y 1).val) :
    (iblk m c 10 t : Vec F S512x512 .f32) y = m ((c : Thread nD τ).loc main_arg2) j := by
  obtain ⟨-, -, -, -, -, -, -, -, -, -, ⟨e0, e1⟩, -, -, -⟩ := idx_facts t
  show V m c main_arg2 (((cfg0.win 10).blk t).view.emb y) = _
  rw [V_main_arg2]
  refine congrArg _ (idx2_ext _ _ ?_ ?_)
  · show win0_10.index t (0 : Fin 2) * 512 + 1 * (y 0).val = (j 0).val
    rw [e0, h0]; omega
  · show win0_10.index t (1 : Fin 2) * 512 + 1 * (y 1).val = (j 1).val
    rw [e1, h1]; omega

/-- The forget bias as the kernel finds it: the [2048] argument laid out as [1, 2048]; and entry `y` of its row block: column tile `t / 8 % 4`. -/
theorem V_main_v0 (c : Dev nD) :
    (V m c main_v0 : S1x2048.Idx → Elt F .f32) = shapeCast S1x2048 (m ((c : Thread nD τ).loc main_arg4)) shapeCasts_S2048_S1x2048 := by
  dsimp only [V, hostOps0]; after_results; rfl

theorem bf_at (c : Dev nD) (t : Fin cfg0.N) (y : S1x512.Idx) (j : S2048.Idx)
    (h : (j 0).val = 512 * (t.val / 8 % 4) + (y 1).val) :
    (iblk m c 6 t : Vec F S1x512 .f32) y = m ((c : Thread nD τ).loc main_arg4) j := by
  obtain ⟨-, -, -, -, -, -, ⟨e0, e1⟩, -, -, -, -, -, -, -⟩ := idx_facts t
  show V m c main_v0 (((cfg0.win 6).blk t).view.emb y) = _
  rw [V_main_v0]
  refine shapeCast_apply _ _ _ j ?_
  rw [Shape.rowMajor_val_one, Shape.rowMajor_val_two]
  show (j 0).val = (win0_6.index t (0 : Fin 2) * 1 + 1 * (y 0).val) * 2048 + (win0_6.index t (1 : Fin 2) * 512 + 1 * (y 1).val)
  have hy : (y 0).val < 1 := (y 0).isLt
  rw [e0, e1, h]; omega

/-- The candidate bias likewise. -/
theorem V_main_v1 (c : Dev nD) :
    (V m c main_v1 : S1x2048.Idx → Elt F .f32) = shapeCast S1x2048 (m ((c : Thread nD τ).loc main_arg6)) shapeCasts_S2048_S1x2048 := by
  dsimp only [V, hostOps0]; after_results; rfl

theorem bc_at (c : Dev nD) (t : Fin cfg0.N) (y : S1x512.Idx) (j : S2048.Idx)
    (h : (j 0).val = 512 * (t.val / 8 % 4) + (y 1).val) :
    (iblk m c 7 t : Vec F S1x512 .f32) y = m ((c : Thread nD τ).loc main_arg6) j := by
  obtain ⟨-, -, -, -, -, -, -, ⟨e0, e1⟩, -, -, -, -, -, -⟩ := idx_facts t
  show V m c main_v1 (((cfg0.win 7).blk t).view.emb y) = _
  rw [V_main_v1]
  refine shapeCast_apply _ _ _ j ?_
  rw [Shape.rowMajor_val_one, Shape.rowMajor_val_two]
  show (j 0).val = (win0_7.index t (0 : Fin 2) * 1 + 1 * (y 0).val) * 2048 + (win0_7.index t (1 : Fin 2) * 512 + 1 * (y 1).val)
  have hy : (y 0).val < 1 := (y 0).isLt
  rw [e0, e1, h]; omega

/-- The input gate bias. -/
theorem V_main_v2 (c : Dev nD) :
    (V m c main_v2 : S1x2048.Idx → Elt F .f32) = shapeCast S1x2048 (m ((c : Thread nD τ).loc main_arg8)) shapeCasts_S2048_S1x2048 := by
  dsimp only [V, hostOps0]; after_results; rfl

theorem bi_at (c : Dev nD) (t : Fin cfg0.N) (y : S1x512.Idx) (j : S2048.Idx)
    (h : (j 0).val = 512 * (t.val / 8 % 4) + (y 1).val) :
    (iblk m c 8 t : Vec F S1x512 .f32) y = m ((c : Thread nD τ).loc main_arg8) j := by
  obtain ⟨-, -, -, -, -, -, -, -, ⟨e0, e1⟩, -, -, -, -, -⟩ := idx_facts t
  show V m c main_v2 (((cfg0.win 8).blk t).view.emb y) = _
  rw [V_main_v2]
  refine shapeCast_apply _ _ _ j ?_
  rw [Shape.rowMajor_val_one, Shape.rowMajor_val_two]
  show (j 0).val = (win0_8.index t (0 : Fin 2) * 1 + 1 * (y 0).val) * 2048 + (win0_8.index t (1 : Fin 2) * 512 + 1 * (y 1).val)
  have hy : (y 0).val < 1 := (y 0).isLt
  rw [e0, e1, h]; omega

/-- The output gate bias. -/
theorem V_main_v3 (c : Dev nD) :
    (V m c main_v3 : S1x2048.Idx → Elt F .f32) = shapeCast S1x2048 (m ((c : Thread nD τ).loc main_arg10)) shapeCasts_S2048_S1x2048 := by
  dsimp only [V, hostOps0]; after_results; rfl

theorem bo_at (c : Dev nD) (t : Fin cfg0.N) (y : S1x512.Idx) (j : S2048.Idx)
    (h : (j 0).val = 512 * (t.val / 8 % 4) + (y 1).val) :
    (iblk m c 9 t : Vec F S1x512 .f32) y = m ((c : Thread nD τ).loc main_arg10) j := by
  obtain ⟨-, -, -, -, -, -, -, -, -, ⟨e0, e1⟩, -, -, -, -⟩ := idx_facts t
  show V m c main_v3 (((cfg0.win 9).blk t).view.emb y) = _
  rw [V_main_v3]
  refine shapeCast_apply _ _ _ j ?_
  rw [Shape.rowMajor_val_one, Shape.rowMajor_val_two]
  show (j 0).val = (win0_9.index t (0 : Fin 2) * 1 + 1 * (y 0).val) * 2048 + (win0_9.index t (1 : Fin 2) * 512 + 1 * (y 1).val)
  have hy : (y 0).val < 1 := (y 0).isLt
  rw [e0, e1, h]; omega

end Cert.KernelIdeal.Blocks
-- ==== Proof.SumBlocks.lean ====
/-
  The one piece of algebra between the two programs: a sum over 4096 contraction indices, taken as eight
  consecutive blocks of 512, is the sum taken at once. It holds in any commutative additive monoid, so on the
  extended reals it needs no finiteness: only the order and grouping of the additions change.
-/
import Mathlib.Algebra.BigOperators.Fin
import Mathlib.Algebra.BigOperators.Intervals

namespace Cert.Lstm

open Finset

/-- A sum over `Fin (n * J)`, cut into `n` consecutive blocks of `J`: block `s` holds the indices
    `J * s + k`, `k < J`. -/
theorem sum_blocks {β : Type*} [AddCommMonoid β] (n J : Nat) (f : Nat → β) :
    ∑ s ∈ range n, ∑ k ∈ range J, f (J * s + k) = ∑ k ∈ range (J * n), f k := by
  induction n with
  | zero => simp
  | succ n ih =>
    rw [sum_range_succ, ih, Nat.mul_succ, sum_range_add]

/-- The same with both sides indexed by `Fin`: the form in which a contraction over 4096 entries meets a
    block-by-block accumulation over a grid axis of eight points. -/
theorem sum_fin_blocks {β : Type*} [AddCommMonoid β] (n J : Nat) (f : Nat → β) :
    ∑ s ∈ range n, ∑ k : Fin J, f (J * s + k.val) = ∑ k : Fin (J * n), f k.val := by
  rw [Fin.sum_univ_eq_sum_range (fun k => f k) (J * n), ← sum_blocks n J f]
  refine sum_congr rfl fun s _ => ?_
  exact Fin.sum_univ_eq_sum_range (fun k => f (J * s + k)) J

/-- The same with the total named: `J * n = N`. -/
theorem sum_fin_blocks_of {β : Type*} [AddCommMonoid β] (n J N : Nat) (hN : J * n = N) (f : Nat → β) :
    ∑ s ∈ range n, ∑ k : Fin J, f (J * s + k.val) = ∑ k : Fin N, f k.val := by
  subst hN
  exact sum_fin_blocks n J f

end Cert.Lstm
-- ==== Proof.Fold.lean ====
/-
  The four accumulators after the last step of a run, as sums.

  Along the grid's reduction axis an accumulator is reset at step 0 and gains one block product at each of the eight
  steps, so after step 7 its entry `(p, q)` is zero plus the eight block products' entries: row `p` of the row tile of
  `x + h` against column `q` of the column tile of the gate's weights, contraction indices `512·s … 512·s + 511` at step
  `s`. Eight consecutive blocks of 512 are the whole contraction over 4096 indices, so with the bias row added the
  entry is the gate's pre-activation at row `512·(row tile) + p`, column `512·(column tile) + q`.
-/
import proofs.«170384_j37924561224179_1_alg».proof.Proof.Gen.KernelIdeal.Value
import proofs.«170384_j37924561224179_1_alg».proof.Proof.Pieces
import proofs.«170384_j37924561224179_1_alg».proof.Proof.KernelEntry
import proofs.«170384_j37924561224179_1_alg».proof.Proof.Blocks
import proofs.«170384_j37924561224179_1_alg».proof.Proof.SumBlocks
import proofs.«170384_j37924561224179_1_alg».proof.Proof.Spec

noncomputable section

open scoped BigOperators
open Idealize.ShloMosaic Idealize.ShloMosaic.TcCoe Idealize.SL.Sem Idealize.ShloMosaic.ValueIdx

namespace Cert.KernelIdeal.Fold

open Cert.KernelIdeal Cert.KernelIdeal.Gen Cert.KernelIdeal.Value

variable (m : (ℓ : Loc nD τ sig) → Buf (Elt Ideal) ℓ)

/-- The grid has 512 points. -/
theorem lt512 (t : Fin cfg0.N) : t.val < 512 := lt_of_lt_of_eq t.isLt N_0

/-! ## The forget accumulator -/

/-- What point `n` adds to the forget accumulator's entry `y` (zero past the grid, where nothing is read). -/
def addend0 (c : Dev nD) (n : Nat) (y : S512x512.Idx) : EReal :=
  if hb : n < cfg0.N then
    Entry.dotAt (iblk m c 0 (⟨n, hb⟩ : Fin cfg0.N)) (iblk m c 1 (⟨n, hb⟩ : Fin cfg0.N)) (iblk m c 2 (⟨n, hb⟩ : Fin cfg0.N)) ⟨(y 0).val, idx2_lt0 y⟩ ⟨(y 1).val, idx2_lt1 y⟩
  else 0

/-- At a run's first step the accumulator becomes zero plus the step's addend, whatever it held. -/
theorem first0 (c : Dev nD) (n : Nat) (hb : n < cfg0.N) (h0 : n % 8 = 0) (acc : Vec Ideal S512x512 .f32) (y : S512x512.Idx) :
    scAt0_0 m c n hb acc y = 0 + addend0 m c n y := by
  have h1 : ¬n % 8 = 7 := by omega
  obtain ⟨p, q, rfl⟩ : ∃ (p : Fin 512) (q : Fin 512), y = ix2 p q := ⟨y 0, y 1, eq_ix2 y⟩
  unfold scAt0_0
  rw [dif_pos h0, dif_neg h1]
  refine (congrFun (Pieces.first_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N))) (ix2 p q)).trans ?_
  refine (Entry.pay13_apply (iblk m c 0 (⟨n, hb⟩ : Fin cfg0.N)) (iblk m c 1 (⟨n, hb⟩ : Fin cfg0.N)) (iblk m c 2 (⟨n, hb⟩ : Fin cfg0.N)) _ p q).trans ?_
  rw [Entry.pay6_apply]
  unfold addend0
  rw [dif_pos hb]

/-- At every later step it gains the step's addend. -/
theorem later0 (c : Dev nD) (n : Nat) (hb : n < cfg0.N) (h0 : ¬n % 8 = 0) (acc : Vec Ideal S512x512 .f32) (y : S512x512.Idx) :
    scAt0_0 m c n hb acc y = acc y + addend0 m c n y := by
  obtain ⟨p, q, rfl⟩ : ∃ (p : Fin 512) (q : Fin 512), y = ix2 p q := ⟨y 0, y 1, eq_ix2 y⟩
  unfold scAt0_0
  rw [dif_neg h0]
  by_cases h1 : n % 8 = 7
  · rw [dif_pos h1]
    refine (congrFun (Pieces.last_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2) (ix2 p q)).trans ?_
    refine (Entry.pay13_apply (iblk m c 0 (⟨n, hb⟩ : Fin cfg0.N)) (iblk m c 1 (⟨n, hb⟩ : Fin cfg0.N)) (iblk m c 2 (⟨n, hb⟩ : Fin cfg0.N)) acc p q).trans ?_
    unfold addend0
    rw [dif_pos hb]
  · rw [dif_neg h1]
    refine (congrFun (Pieces.middle_0 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) acc (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2) (ix2 p q)).trans ?_
    refine (Entry.pay13_apply (iblk m c 0 (⟨n, hb⟩ : Fin cfg0.N)) (iblk m c 1 (⟨n, hb⟩ : Fin cfg0.N)) (iblk m c 2 (⟨n, hb⟩ : Fin cfg0.N)) acc p q).trans ?_
    unfold addend0
    rw [dif_pos hb]

/-- After a run's last step the accumulator's entry is zero plus the eight steps' addends. -/
theorem acc0_sum (c : Dev nD) (t : Fin cfg0.N) (h7 : t.val % 8 = 7) (y : S512x512.Idx) :
    (outsAt0 m c t.val t.isLt).2.2.2.1 y = 0 + ∑ s ∈ Finset.range 8, addend0 m c (8 * (t.val / 8) + s) y := by
  rw [soutsAt0_0_eq m c t]
  refine (Pipeline.accAt_add_apply (β := EReal) _ _ (fun _ => (0 : EReal)) (addend0 m c) (8 * (t.val / 8)) 7
    (fun h i => first0 m c _ h (by omega) _ i)
    (fun n h acc i hlt hle => later0 m c n h (by omega) acc i) (t.val % 8) (by omega) _ y).trans ?_
  rw [h7]

/-- With its bias row the accumulator's entry `(p, q)` is the forget gate's pre-activation at the tile's place. -/
theorem gate0_at (c : Dev nD) (t : Fin cfg0.N) (h7 : t.val % 8 = 7) (p q : Fin 512) (r : Fin 8192) (cc : Fin 2048)
    (hr : r.val = 512 * (t.val / 32) + p.val) (hcc : cc.val = 512 * (t.val / 8 % 4) + q.val) :
    Entry.biased ((outsAt0 m c t.val t.isLt).2.2.2.1) (iblk m c 6 t) (ix2 p q)
      = Lstm.gateAt (m ((c : Thread nD τ).loc main_arg0)) (m ((c : Thread nD τ).loc main_arg1))
          (m ((c : Thread nD τ).loc main_arg3)) (m ((c : Thread nD τ).loc main_arg4)) r cc := by
  have ht := lt512 t
  rw [Entry.biased_apply, acc0_sum m c t h7, zero_add]
  unfold Lstm.gateAt
  congr 1
  · rw [← Lstm.sum_fin_blocks_of 8 512 4096 rfl]
    refine Finset.sum_congr rfl fun s hs => ?_
    have hs8 : s < 8 := Finset.mem_range.mp hs
    have hn : 8 * (t.val / 8) + s < cfg0.N := lt_of_lt_of_eq (by omega : 8 * (t.val / 8) + s < 512) N_0.symm
    unfold addend0
    rw [dif_pos hn]
    unfold Entry.dotAt
    refine Finset.sum_congr rfl fun k _ => ?_
    have hk : 512 * s + k.val < 4096 := by have := k.isLt; omega
    unfold Lstm.term
    rw [dif_pos hk]
    rw [Blocks.x_at m c ⟨_, hn⟩ _ (ix2 r ⟨512 * s + k.val, hk⟩) (by show r.val = _; rw [hr]; show _ = 512 * ((8 * (t.val / 8) + s) / 32) + p.val; omega) (by show 512 * s + k.val = 512 * ((8 * (t.val / 8) + s) % 8) + k.val; omega),
      Blocks.h_at m c ⟨_, hn⟩ _ (ix2 r ⟨512 * s + k.val, hk⟩) (by show r.val = _; rw [hr]; show _ = 512 * ((8 * (t.val / 8) + s) / 32) + p.val; omega) (by show 512 * s + k.val = 512 * ((8 * (t.val / 8) + s) % 8) + k.val; omega),
      Blocks.wf_at m c ⟨_, hn⟩ _ (ix2 ⟨512 * s + k.val, hk⟩ cc) (by show 512 * s + k.val = 512 * ((8 * (t.val / 8) + s) % 8) + k.val; omega) (by show cc.val = _; rw [hcc]; show _ = 512 * ((8 * (t.val / 8) + s) / 8 % 4) + q.val; omega)]
  · exact Blocks.bf_at m c t _ (ix1 cc) (by show cc.val = _; rw [hcc])

/-! ## The candidate accumulator -/

/-- What point `n` adds to the candidate accumulator's entry `y` (zero past the grid, where nothing is read). -/
def addend1 (c : Dev nD) (n : Nat) (y : S512x512.Idx) : EReal :=
  if hb : n < cfg0.N then
    Entry.dotAt (iblk m c 0 (⟨n, hb⟩ : Fin cfg0.N)) (iblk m c 1 (⟨n, hb⟩ : Fin cfg0.N)) (iblk m c 3 (⟨n, hb⟩ : Fin cfg0.N)) ⟨(y 0).val, idx2_lt0 y⟩ ⟨(y 1).val, idx2_lt1 y⟩
  else 0

/-- At a run's first step the accumulator becomes zero plus the step's addend, whatever it held. -/
theorem first1 (c : Dev nD) (n : Nat) (hb : n < cfg0.N) (h0 : n % 8 = 0) (acc : Vec Ideal S512x512 .f32) (y : S512x512.Idx) :
    scAt0_1 m c n hb acc y = 0 + addend1 m c n y := by
  have h1 : ¬n % 8 = 7 := by omega
  obtain ⟨p, q, rfl⟩ : ∃ (p : Fin 512) (q : Fin 512), y = ix2 p q := ⟨y 0, y 1, eq_ix2 y⟩
  unfold scAt0_1
  rw [dif_pos h0, dif_neg h1]
  refine (congrFun (Pieces.first_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N))) (ix2 p q)).trans ?_
  refine (Entry.pay14_apply (iblk m c 0 (⟨n, hb⟩ : Fin cfg0.N)) (iblk m c 1 (⟨n, hb⟩ : Fin cfg0.N)) (iblk m c 3 (⟨n, hb⟩ : Fin cfg0.N)) _ p q).trans ?_
  rw [Entry.pay7_apply]
  unfold addend1
  rw [dif_pos hb]

/-- At every later step it gains the step's addend. -/
theorem later1 (c : Dev nD) (n : Nat) (hb : n < cfg0.N) (h0 : ¬n % 8 = 0) (acc : Vec Ideal S512x512 .f32) (y : S512x512.Idx) :
    scAt0_1 m c n hb acc y = acc y + addend1 m c n y := by
  obtain ⟨p, q, rfl⟩ : ∃ (p : Fin 512) (q : Fin 512), y = ix2 p q := ⟨y 0, y 1, eq_ix2 y⟩
  unfold scAt0_1
  rw [dif_neg h0]
  by_cases h1 : n % 8 = 7
  · rw [dif_pos h1]
    refine (congrFun (Pieces.last_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2) (ix2 p q)).trans ?_
    refine (Entry.pay14_apply (iblk m c 0 (⟨n, hb⟩ : Fin cfg0.N)) (iblk m c 1 (⟨n, hb⟩ : Fin cfg0.N)) (iblk m c 3 (⟨n, hb⟩ : Fin cfg0.N)) acc p q).trans ?_
    unfold addend1
    rw [dif_pos hb]
  · rw [dif_neg h1]
    refine (congrFun (Pieces.middle_1 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 acc (outsAt0 m c ((⟨n, hb⟩ : Fin cfg0.N).val - 1) (Nat.lt_of_le_of_lt (Nat.sub_le _ _) (⟨n, hb⟩ : Fin cfg0.N).isLt)).2.2.2.2.2.1 (outsAt0 m c ((⟨n, hb⟩ : Fin cfg0.N).val - 1) (Nat.lt_of_le_of_lt (Nat.sub_le _ _) (⟨n, hb⟩ : Fin cfg0.N).isLt)).2.2.2.2.2.2) (ix2 p q)).trans ?_
    refine (Entry.pay14_apply (iblk m c 0 (⟨n, hb⟩ : Fin cfg0.N)) (iblk m c 1 (⟨n, hb⟩ : Fin cfg0.N)) (iblk m c 3 (⟨n, hb⟩ : Fin cfg0.N)) acc p q).trans ?_
    unfold addend1
    rw [dif_pos hb]

/-- After a run's last step the accumulator's entry is zero plus the eight steps' addends. -/
theorem acc1_sum (c : Dev nD) (t : Fin cfg0.N) (h7 : t.val % 8 = 7) (y : S512x512.Idx) :
    (outsAt0 m c t.val t.isLt).2.2.2.2.1 y = 0 + ∑ s ∈ Finset.range 8, addend1 m c (8 * (t.val / 8) + s) y := by
  rw [soutsAt0_1_eq m c t]
  refine (Pipeline.accAt_add_apply (β := EReal) _ _ (fun _ => (0 : EReal)) (addend1 m c) (8 * (t.val / 8)) 7
    (fun h i => first1 m c _ h (by omega) _ i)
    (fun n h acc i hlt hle => later1 m c n h (by omega) acc i) (t.val % 8) (by omega) _ y).trans ?_
  rw [h7]

/-- With its bias row the accumulator's entry `(p, q)` is the candidate gate's pre-activation at the tile's place. -/
theorem gate1_at (c : Dev nD) (t : Fin cfg0.N) (h7 : t.val % 8 = 7) (p q : Fin 512) (r : Fin 8192) (cc : Fin 2048)
    (hr : r.val = 512 * (t.val / 32) + p.val) (hcc : cc.val = 512 * (t.val / 8 % 4) + q.val) :
    Entry.biased ((outsAt0 m c t.val t.isLt).2.2.2.2.1) (iblk m c 7 t) (ix2 p q)
      = Lstm.gateAt (m ((c : Thread nD τ).loc main_arg0)) (m ((c : Thread nD τ).loc main_arg1))
          (m ((c : Thread nD τ).loc main_arg5)) (m ((c : Thread nD τ).loc main_arg6)) r cc := by
  have ht := lt512 t
  rw [Entry.biased_apply, acc1_sum m c t h7, zero_add]
  unfold Lstm.gateAt
  congr 1
  · rw [← Lstm.sum_fin_blocks_of 8 512 4096 rfl]
    refine Finset.sum_congr rfl fun s hs => ?_
    have hs8 : s < 8 := Finset.mem_range.mp hs
    have hn : 8 * (t.val / 8) + s < cfg0.N := lt_of_lt_of_eq (by omega : 8 * (t.val / 8) + s < 512) N_0.symm
    unfold addend1
    rw [dif_pos hn]
    unfold Entry.dotAt
    refine Finset.sum_congr rfl fun k _ => ?_
    have hk : 512 * s + k.val < 4096 := by have := k.isLt; omega
    unfold Lstm.term
    rw [dif_pos hk]
    rw [Blocks.x_at m c ⟨_, hn⟩ _ (ix2 r ⟨512 * s + k.val, hk⟩) (by show r.val = _; rw [hr]; show _ = 512 * ((8 * (t.val / 8) + s) / 32) + p.val; omega) (by show 512 * s + k.val = 512 * ((8 * (t.val / 8) + s) % 8) + k.val; omega),
      Blocks.h_at m c ⟨_, hn⟩ _ (ix2 r ⟨512 * s + k.val, hk⟩) (by show r.val = _; rw [hr]; show _ = 512 * ((8 * (t.val / 8) + s) / 32) + p.val; omega) (by show 512 * s + k.val = 512 * ((8 * (t.val / 8) + s) % 8) + k.val; omega),
      Blocks.wc_at m c ⟨_, hn⟩ _ (ix2 ⟨512 * s + k.val, hk⟩ cc) (by show 512 * s + k.val = 512 * ((8 * (t.val / 8) + s) % 8) + k.val; omega) (by show cc.val = _; rw [hcc]; show _ = 512 * ((8 * (t.val / 8) + s) / 8 % 4) + q.val; omega)]
  · exact Blocks.bc_at m c t _ (ix1 cc) (by show cc.val = _; rw [hcc])

/-! ## The input accumulator -/

/-- What point `n` adds to the input accumulator's entry `y` (zero past the grid, where nothing is read). -/
def addend2 (c : Dev nD) (n : Nat) (y : S512x512.Idx) : EReal :=
  if hb : n < cfg0.N then
    Entry.dotAt (iblk m c 0 (⟨n, hb⟩ : Fin cfg0.N)) (iblk m c 1 (⟨n, hb⟩ : Fin cfg0.N)) (iblk m c 4 (⟨n, hb⟩ : Fin cfg0.N)) ⟨(y 0).val, idx2_lt0 y⟩ ⟨(y 1).val, idx2_lt1 y⟩
  else 0

/-- At a run's first step the accumulator becomes zero plus the step's addend, whatever it held. -/
theorem first2 (c : Dev nD) (n : Nat) (hb : n < cfg0.N) (h0 : n % 8 = 0) (acc : Vec Ideal S512x512 .f32) (y : S512x512.Idx) :
    scAt0_2 m c n hb acc y = 0 + addend2 m c n y := by
  have h1 : ¬n % 8 = 7 := by omega
  obtain ⟨p, q, rfl⟩ : ∃ (p : Fin 512) (q : Fin 512), y = ix2 p q := ⟨y 0, y 1, eq_ix2 y⟩
  unfold scAt0_2
  rw [dif_pos h0, dif_neg h1]
  refine (congrFun (Pieces.first_2 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N))) (ix2 p q)).trans ?_
  refine (Entry.pay1_apply (iblk m c 0 (⟨n, hb⟩ : Fin cfg0.N)) (iblk m c 1 (⟨n, hb⟩ : Fin cfg0.N)) (iblk m c 4 (⟨n, hb⟩ : Fin cfg0.N)) _ p q).trans ?_
  rw [Entry.pay8_apply]
  unfold addend2
  rw [dif_pos hb]

/-- At every later step it gains the step's addend. -/
theorem later2 (c : Dev nD) (n : Nat) (hb : n < cfg0.N) (h0 : ¬n % 8 = 0) (acc : Vec Ideal S512x512 .f32) (y : S512x512.Idx) :
    scAt0_2 m c n hb acc y = acc y + addend2 m c n y := by
  obtain ⟨p, q, rfl⟩ : ∃ (p : Fin 512) (q : Fin 512), y = ix2 p q := ⟨y 0, y 1, eq_ix2 y⟩
  unfold scAt0_2
  rw [dif_neg h0]
  by_cases h1 : n % 8 = 7
  · rw [dif_pos h1]
    refine (congrFun (Pieces.last_2 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc (outsAt0 m c ((⟨n, hb⟩ : Fin cfg0.N).val - 1) (Nat.lt_of_le_of_lt (Nat.sub_le _ _) (⟨n, hb⟩ : Fin cfg0.N).isLt)).2.2.2.2.2.2) (ix2 p q)).trans ?_
    refine (Entry.pay1_apply (iblk m c 0 (⟨n, hb⟩ : Fin cfg0.N)) (iblk m c 1 (⟨n, hb⟩ : Fin cfg0.N)) (iblk m c 4 (⟨n, hb⟩ : Fin cfg0.N)) acc p q).trans ?_
    unfold addend2
    rw [dif_pos hb]
  · rw [dif_neg h1]
    refine (congrFun (Pieces.middle_2 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 acc (outsAt0 m c ((⟨n, hb⟩ : Fin cfg0.N).val - 1) (Nat.lt_of_le_of_lt (Nat.sub_le _ _) (⟨n, hb⟩ : Fin cfg0.N).isLt)).2.2.2.2.2.2) (ix2 p q)).trans ?_
    refine (Entry.pay1_apply (iblk m c 0 (⟨n, hb⟩ : Fin cfg0.N)) (iblk m c 1 (⟨n, hb⟩ : Fin cfg0.N)) (iblk m c 4 (⟨n, hb⟩ : Fin cfg0.N)) acc p q).trans ?_
    unfold addend2
    rw [dif_pos hb]

/-- After a run's last step the accumulator's entry is zero plus the eight steps' addends. -/
theorem acc2_sum (c : Dev nD) (t : Fin cfg0.N) (h7 : t.val % 8 = 7) (y : S512x512.Idx) :
    (outsAt0 m c t.val t.isLt).2.2.2.2.2.1 y = 0 + ∑ s ∈ Finset.range 8, addend2 m c (8 * (t.val / 8) + s) y := by
  rw [soutsAt0_2_eq m c t]
  refine (Pipeline.accAt_add_apply (β := EReal) _ _ (fun _ => (0 : EReal)) (addend2 m c) (8 * (t.val / 8)) 7
    (fun h i => first2 m c _ h (by omega) _ i)
    (fun n h acc i hlt hle => later2 m c n h (by omega) acc i) (t.val % 8) (by omega) _ y).trans ?_
  rw [h7]

/-- With its bias row the accumulator's entry `(p, q)` is the input gate's pre-activation at the tile's place. -/
theorem gate2_at (c : Dev nD) (t : Fin cfg0.N) (h7 : t.val % 8 = 7) (p q : Fin 512) (r : Fin 8192) (cc : Fin 2048)
    (hr : r.val = 512 * (t.val / 32) + p.val) (hcc : cc.val = 512 * (t.val / 8 % 4) + q.val) :
    Entry.biased ((outsAt0 m c t.val t.isLt).2.2.2.2.2.1) (iblk m c 8 t) (ix2 p q)
      = Lstm.gateAt (m ((c : Thread nD τ).loc main_arg0)) (m ((c : Thread nD τ).loc main_arg1))
          (m ((c : Thread nD τ).loc main_arg7)) (m ((c : Thread nD τ).loc main_arg8)) r cc := by
  have ht := lt512 t
  rw [Entry.biased_apply, acc2_sum m c t h7, zero_add]
  unfold Lstm.gateAt
  congr 1
  · rw [← Lstm.sum_fin_blocks_of 8 512 4096 rfl]
    refine Finset.sum_congr rfl fun s hs => ?_
    have hs8 : s < 8 := Finset.mem_range.mp hs
    have hn : 8 * (t.val / 8) + s < cfg0.N := lt_of_lt_of_eq (by omega : 8 * (t.val / 8) + s < 512) N_0.symm
    unfold addend2
    rw [dif_pos hn]
    unfold Entry.dotAt
    refine Finset.sum_congr rfl fun k _ => ?_
    have hk : 512 * s + k.val < 4096 := by have := k.isLt; omega
    unfold Lstm.term
    rw [dif_pos hk]
    rw [Blocks.x_at m c ⟨_, hn⟩ _ (ix2 r ⟨512 * s + k.val, hk⟩) (by show r.val = _; rw [hr]; show _ = 512 * ((8 * (t.val / 8) + s) / 32) + p.val; omega) (by show 512 * s + k.val = 512 * ((8 * (t.val / 8) + s) % 8) + k.val; omega),
      Blocks.h_at m c ⟨_, hn⟩ _ (ix2 r ⟨512 * s + k.val, hk⟩) (by show r.val = _; rw [hr]; show _ = 512 * ((8 * (t.val / 8) + s) / 32) + p.val; omega) (by show 512 * s + k.val = 512 * ((8 * (t.val / 8) + s) % 8) + k.val; omega),
      Blocks.wi_at m c ⟨_, hn⟩ _ (ix2 ⟨512 * s + k.val, hk⟩ cc) (by show 512 * s + k.val = 512 * ((8 * (t.val / 8) + s) % 8) + k.val; omega) (by show cc.val = _; rw [hcc]; show _ = 512 * ((8 * (t.val / 8) + s) / 8 % 4) + q.val; omega)]
  · exact Blocks.bi_at m c t _ (ix1 cc) (by show cc.val = _; rw [hcc])

/-! ## The output accumulator -/

/-- What point `n` adds to the output accumulator's entry `y` (zero past the grid, where nothing is read). -/
def addend3 (c : Dev nD) (n : Nat) (y : S512x512.Idx) : EReal :=
  if hb : n < cfg0.N then
    Entry.dotAt (iblk m c 0 (⟨n, hb⟩ : Fin cfg0.N)) (iblk m c 1 (⟨n, hb⟩ : Fin cfg0.N)) (iblk m c 5 (⟨n, hb⟩ : Fin cfg0.N)) ⟨(y 0).val, idx2_lt0 y⟩ ⟨(y 1).val, idx2_lt1 y⟩
  else 0

/-- At a run's first step the accumulator becomes zero plus the step's addend, whatever it held. -/
theorem first3 (c : Dev nD) (n : Nat) (hb : n < cfg0.N) (h0 : n % 8 = 0) (acc : Vec Ideal S512x512 .f32) (y : S512x512.Idx) :
    scAt0_3 m c n hb acc y = 0 + addend3 m c n y := by
  have h1 : ¬n % 8 = 7 := by omega
  obtain ⟨p, q, rfl⟩ : ∃ (p : Fin 512) (q : Fin 512), y = ix2 p q := ⟨y 0, y 1, eq_ix2 y⟩
  unfold scAt0_3
  rw [dif_pos h0, dif_neg h1]
  refine (congrFun (Pieces.first_3 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) ((hcond0_0 (⟨n, hb⟩ : Fin cfg0.N)).mpr h0) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N))) (ix2 p q)).trans ?_
  refine (Entry.pay2_apply (iblk m c 0 (⟨n, hb⟩ : Fin cfg0.N)) (iblk m c 1 (⟨n, hb⟩ : Fin cfg0.N)) (iblk m c 5 (⟨n, hb⟩ : Fin cfg0.N)) _ p q).trans ?_
  rw [Entry.pay9_apply]
  unfold addend3
  rw [dif_pos hb]

/-- At every later step it gains the step's addend. -/
theorem later3 (c : Dev nD) (n : Nat) (hb : n < cfg0.N) (h0 : ¬n % 8 = 0) (acc : Vec Ideal S512x512 .f32) (y : S512x512.Idx) :
    scAt0_3 m c n hb acc y = acc y + addend3 m c n y := by
  obtain ⟨p, q, rfl⟩ : ∃ (p : Fin 512) (q : Fin 512), y = ix2 p q := ⟨y 0, y 1, eq_ix2 y⟩
  unfold scAt0_3
  rw [dif_neg h0]
  by_cases h1 : n % 8 = 7
  · rw [dif_pos h1]
    refine (congrFun (Pieces.last_3 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) ((hcond0_1 (⟨n, hb⟩ : Fin cfg0.N)).mpr h1) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 acc) (ix2 p q)).trans ?_
    refine (Entry.pay2_apply (iblk m c 0 (⟨n, hb⟩ : Fin cfg0.N)) (iblk m c 1 (⟨n, hb⟩ : Fin cfg0.N)) (iblk m c 5 (⟨n, hb⟩ : Fin cfg0.N)) acc p q).trans ?_
    unfold addend3
    rw [dif_pos hb]
  · rw [dif_neg h1]
    refine (congrFun (Pieces.middle_3 (F := Ideal) c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) (ms0_5 (⟨n, hb⟩ : Fin cfg0.N)) (hs0_5 (⟨n, hb⟩ : Fin cfg0.N)) (ms0_6 (⟨n, hb⟩ : Fin cfg0.N)) (hs0_6 (⟨n, hb⟩ : Fin cfg0.N)) (ms0_7 (⟨n, hb⟩ : Fin cfg0.N)) (hs0_7 (⟨n, hb⟩ : Fin cfg0.N)) (ms0_8 (⟨n, hb⟩ : Fin cfg0.N)) (hs0_8 (⟨n, hb⟩ : Fin cfg0.N)) (ms0_9 (⟨n, hb⟩ : Fin cfg0.N)) (hs0_9 (⟨n, hb⟩ : Fin cfg0.N)) (ms0_10 (⟨n, hb⟩ : Fin cfg0.N)) (hs0_10 (⟨n, hb⟩ : Fin cfg0.N)) (ms0_11 (⟨n, hb⟩ : Fin cfg0.N)) (hs0_11 (⟨n, hb⟩ : Fin cfg0.N)) (ms0_12 (⟨n, hb⟩ : Fin cfg0.N)) (hs0_12 (⟨n, hb⟩ : Fin cfg0.N)) (ms0_13 (⟨n, hb⟩ : Fin cfg0.N)) (hs0_13 (⟨n, hb⟩ : Fin cfg0.N)) scM0_0 (Memref.isWhole_whole _) scM0_1 (Memref.isWhole_whole _) scM0_2 (Memref.isWhole_whole _) scM0_3 (Memref.isWhole_whole _) (fun h => h0 ((hcond0_0 (⟨n, hb⟩ : Fin cfg0.N)).mp h)) (fun h => h1 ((hcond0_1 (⟨n, hb⟩ : Fin cfg0.N)).mp h)) (iblk m c 0 (⟨n, hb⟩ : Fin cfg0.N)) (iblk m c 1 (⟨n, hb⟩ : Fin cfg0.N)) (iblk m c 2 (⟨n, hb⟩ : Fin cfg0.N)) (iblk m c 3 (⟨n, hb⟩ : Fin cfg0.N)) (iblk m c 4 (⟨n, hb⟩ : Fin cfg0.N)) (iblk m c 5 (⟨n, hb⟩ : Fin cfg0.N)) (iblk m c 6 (⟨n, hb⟩ : Fin cfg0.N)) (iblk m c 7 (⟨n, hb⟩ : Fin cfg0.N)) (iblk m c 8 (⟨n, hb⟩ : Fin cfg0.N)) (iblk m c 9 (⟨n, hb⟩ : Fin cfg0.N)) (iblk m c 10 (⟨n, hb⟩ : Fin cfg0.N)) (outsAt0 m c ((⟨n, hb⟩ : Fin cfg0.N).val - 1) (Nat.lt_of_le_of_lt (Nat.sub_le _ _) (⟨n, hb⟩ : Fin cfg0.N).isLt)).2.2.2.1 (outsAt0 m c ((⟨n, hb⟩ : Fin cfg0.N).val - 1) (Nat.lt_of_le_of_lt (Nat.sub_le _ _) (⟨n, hb⟩ : Fin cfg0.N).isLt)).2.2.2.2.1 (outsAt0 m c ((⟨n, hb⟩ : Fin cfg0.N).val - 1) (Nat.lt_of_le_of_lt (Nat.sub_le _ _) (⟨n, hb⟩ : Fin cfg0.N).isLt)).2.2.2.2.2.1 acc) (ix2 p q)).trans ?_
    refine (Entry.pay2_apply (iblk m c 0 (⟨n, hb⟩ : Fin cfg0.N)) (iblk m c 1 (⟨n, hb⟩ : Fin cfg0.N)) (iblk m c 5 (⟨n, hb⟩ : Fin cfg0.N)) acc p q).trans ?_
    unfold addend3
    rw [dif_pos hb]

/-- After a run's last step the accumulator's entry is zero plus the eight steps' addends. -/
theorem acc3_sum (c : Dev nD) (t : Fin cfg0.N) (h7 : t.val % 8 = 7) (y : S512x512.Idx) :
    (outsAt0 m c t.val t.isLt).2.2.2.2.2.2 y = 0 + ∑ s ∈ Finset.range 8, addend3 m c (8 * (t.val / 8) + s) y := by
  rw [soutsAt0_3_eq m c t]
  refine (Pipeline.accAt_add_apply (β := EReal) _ _ (fun _ => (0 : EReal)) (addend3 m c) (8 * (t.val / 8)) 7
    (fun h i => first3 m c _ h (by omega) _ i)
    (fun n h acc i hlt hle => later3 m c n h (by omega) acc i) (t.val % 8) (by omega) _ y).trans ?_
  rw [h7]

/-- With its bias row the accumulator's entry `(p, q)` is the output gate's pre-activation at the tile's place. -/
theorem gate3_at (c : Dev nD) (t : Fin cfg0.N) (h7 : t.val % 8 = 7) (p q : Fin 512) (r : Fin 8192) (cc : Fin 2048)
    (hr : r.val = 512 * (t.val / 32) + p.val) (hcc : cc.val = 512 * (t.val / 8 % 4) + q.val) :
    Entry.biased ((outsAt0 m c t.val t.isLt).2.2.2.2.2.2) (iblk m c 9 t) (ix2 p q)
      = Lstm.gateAt (m ((c : Thread nD τ).loc main_arg0)) (m ((c : Thread nD τ).loc main_arg1))
          (m ((c : Thread nD τ).loc main_arg9)) (m ((c : Thread nD τ).loc main_arg10)) r cc := by
  have ht := lt512 t
  rw [Entry.biased_apply, acc3_sum m c t h7, zero_add]
  unfold Lstm.gateAt
  congr 1
  · rw [← Lstm.sum_fin_blocks_of 8 512 4096 rfl]
    refine Finset.sum_congr rfl fun s hs => ?_
    have hs8 : s < 8 := Finset.mem_range.mp hs
    have hn : 8 * (t.val / 8) + s < cfg0.N := lt_of_lt_of_eq (by omega : 8 * (t.val / 8) + s < 512) N_0.symm
    unfold addend3
    rw [dif_pos hn]
    unfold Entry.dotAt
    refine Finset.sum_congr rfl fun k _ => ?_
    have hk : 512 * s + k.val < 4096 := by have := k.isLt; omega
    unfold Lstm.term
    rw [dif_pos hk]
    rw [Blocks.x_at m c ⟨_, hn⟩ _ (ix2 r ⟨512 * s + k.val, hk⟩) (by show r.val = _; rw [hr]; show _ = 512 * ((8 * (t.val / 8) + s) / 32) + p.val; omega) (by show 512 * s + k.val = 512 * ((8 * (t.val / 8) + s) % 8) + k.val; omega),
      Blocks.h_at m c ⟨_, hn⟩ _ (ix2 r ⟨512 * s + k.val, hk⟩) (by show r.val = _; rw [hr]; show _ = 512 * ((8 * (t.val / 8) + s) / 32) + p.val; omega) (by show 512 * s + k.val = 512 * ((8 * (t.val / 8) + s) % 8) + k.val; omega),
      Blocks.wo_at m c ⟨_, hn⟩ _ (ix2 ⟨512 * s + k.val, hk⟩ cc) (by show 512 * s + k.val = 512 * ((8 * (t.val / 8) + s) % 8) + k.val; omega) (by show cc.val = _; rw [hcc]; show _ = 512 * ((8 * (t.val / 8) + s) / 8 % 4) + q.val; omega)]
  · exact Blocks.bo_at m c t _ (ix1 cc) (by show cc.val = _; rw [hcc])

end Cert.KernelIdeal.Fold
-- ==== Proof.SpecCongr.lean ====
/-
  The cell update is pointwise: an entry of each result depends only on the same entry of the gates' pre-activations and
  of the old cell state. So two instances of the update, on arrays of any two shapes, agree at a pair of entries as soon
  as their inputs agree at that pair.
-/
import proofs.«170384_j37924561224179_1_alg».proof.Proof.Spec

noncomputable section

namespace Cert.Lstm

open Idealize.ShloMosaic

variable {s s' : Shape}

theorem outGate_congr (go : FVec Ideal s .f32) (go' : FVec Ideal s' .f32) (i : s.Idx) (i' : s'.Idx) (ho : go i = go' i') :
    outGate go i = outGate go' i' := by
  show FloatOps.logistic (go i) = FloatOps.logistic (go' i')
  rw [ho]

theorem cellNext_congr (gf gc gi cell : FVec Ideal s .f32) (gf' gc' gi' cell' : FVec Ideal s' .f32) (i : s.Idx) (i' : s'.Idx)
    (hf : gf i = gf' i') (hc : gc i = gc' i') (hi : gi i = gi' i') (hcell : cell i = cell' i') :
    cellNext gf gc gi cell i = cellNext gf' gc' gi' cell' i' := by
  show FloatOps.addf (FloatOps.mulf (cell i) (FloatOps.logistic (gf i)))
      (FloatOps.mulf (FloatOps.tanh (gc i)) (FloatOps.logistic (FloatOps.logistic (gi i))))
    = FloatOps.addf (FloatOps.mulf (cell' i') (FloatOps.logistic (gf' i')))
      (FloatOps.mulf (FloatOps.tanh (gc' i')) (FloatOps.logistic (FloatOps.logistic (gi' i'))))
  rw [hf, hc, hi, hcell]

theorem hidNext_congr (gf gc gi go cell : FVec Ideal s .f32) (gf' gc' gi' go' cell' : FVec Ideal s' .f32) (i : s.Idx) (i' : s'.Idx)
    (hf : gf i = gf' i') (hc : gc i = gc' i') (hi : gi i = gi' i') (ho : go i = go' i') (hcell : cell i = cell' i') :
    hidNext gf gc gi go cell i = hidNext gf' gc' gi' go' cell' i' := by
  show FloatOps.mulf (outGate go i) (FloatOps.tanh (cellNext gf gc gi cell i))
    = FloatOps.mulf (outGate go' i') (FloatOps.tanh (cellNext gf' gc' gi' cell' i'))
  rw [outGate_congr go go' i i' ho, cellNext_congr gf gc gi cell gf' gc' gi' cell' i i' hf hc hi hcell]

end Cert.Lstm
-- ==== Proof.Final.lean ====
/-
  The kernel's three result arrays after the run.

  A result block is written back only at the last step of its run along the reduction axis, and what is written is
  the cell update of the four accumulators just completed, the bias rows and the old cell block. By then each biased
  accumulator entry is the gate's pre-activation at the tile's place, so the block written back is the tile of the
  specification's array. The 16 x 4 tiles of 512 x 512 cover the [8192, 2048] result, so each result array ends as
  the specification's.
-/
import proofs.«170384_j37924561224179_1_alg».proof.Proof.Fold
import proofs.«170384_j37924561224179_1_alg».proof.Proof.SpecCongr

noncomputable section

open Idealize.ShloMosaic Idealize.ShloMosaic.TcCoe Idealize.SL.Sem Idealize.ShloMosaic.ValueIdx
open Idealize.ShloMosaic.Pipeline (Dat)

namespace Cert.KernelIdeal.RefValue

open Cert.KernelIdeal Cert.KernelIdeal.Gen

variable (m : (ℓ : Loc nD τ sig) → Buf (Elt Ideal) ℓ) (ρ : Dev nD → PrngReg)

/-- The output gate, as contents of the first result array. -/
def outArr (c : Dev nD) : Buf (Elt Ideal) ((c : Thread nD τ).loc main_v4_0) := Lstm.outGate (Lstm.gate (m ((c : Thread nD τ).loc main_arg0)) (m ((c : Thread nD τ).loc main_arg1)) (m ((c : Thread nD τ).loc main_arg9)) (m ((c : Thread nD τ).loc main_arg10)))

/-- The new hidden state, as contents of the second. -/
def hidArr (c : Dev nD) : Buf (Elt Ideal) ((c : Thread nD τ).loc main_v4_1) :=
  Lstm.hidNext (Lstm.gate (m ((c : Thread nD τ).loc main_arg0)) (m ((c : Thread nD τ).loc main_arg1)) (m ((c : Thread nD τ).loc main_arg3)) (m ((c : Thread nD τ).loc main_arg4))) (Lstm.gate (m ((c : Thread nD τ).loc main_arg0)) (m ((c : Thread nD τ).loc main_arg1)) (m ((c : Thread nD τ).loc main_arg5)) (m ((c : Thread nD τ).loc main_arg6))) (Lstm.gate (m ((c : Thread nD τ).loc main_arg0)) (m ((c : Thread nD τ).loc main_arg1)) (m ((c : Thread nD τ).loc main_arg7)) (m ((c : Thread nD τ).loc main_arg8))) (Lstm.gate (m ((c : Thread nD τ).loc main_arg0)) (m ((c : Thread nD τ).loc main_arg1)) (m ((c : Thread nD τ).loc main_arg9)) (m ((c : Thread nD τ).loc main_arg10))) (m ((c : Thread nD τ).loc main_arg2))

/-- The new cell state, as contents of the third. -/
def cellArr (c : Dev nD) : Buf (Elt Ideal) ((c : Thread nD τ).loc main_v4_2) :=
  Lstm.cellNext (Lstm.gate (m ((c : Thread nD τ).loc main_arg0)) (m ((c : Thread nD τ).loc main_arg1)) (m ((c : Thread nD τ).loc main_arg3)) (m ((c : Thread nD τ).loc main_arg4))) (Lstm.gate (m ((c : Thread nD τ).loc main_arg0)) (m ((c : Thread nD τ).loc main_arg1)) (m ((c : Thread nD τ).loc main_arg5)) (m ((c : Thread nD τ).loc main_arg6))) (Lstm.gate (m ((c : Thread nD τ).loc main_arg0)) (m ((c : Thread nD τ).loc main_arg1)) (m ((c : Thread nD τ).loc main_arg7)) (m ((c : Thread nD τ).loc main_arg8))) (m ((c : Thread nD τ).loc main_arg2))

/-- At a run's last point each accumulator is the update of what the point before left. -/
theorem last0 (c : Dev nD) (t : Fin cfg0.N) (h0 : ¬t.val % 8 = 0) (h7 : t.val % 8 = 7) :
    (outsAt0 m c t.val t.isLt).2.2.2.1 = k0_pay13 (iblk m c 0 t) (iblk m c 1 t) (iblk m c 2 t) (outsAt0 m c (t.val - 1) (Nat.lt_of_le_of_lt (Nat.sub_le _ _) t.isLt)).2.2.2.1 := by
  rw [outsAt0_C m c t h0 h7]
  dsimp only
  exact Pieces.last_0 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2

theorem last1 (c : Dev nD) (t : Fin cfg0.N) (h0 : ¬t.val % 8 = 0) (h7 : t.val % 8 = 7) :
    (outsAt0 m c t.val t.isLt).2.2.2.2.1 = k0_pay14 (iblk m c 0 t) (iblk m c 1 t) (iblk m c 3 t) (outsAt0 m c (t.val - 1) (Nat.lt_of_le_of_lt (Nat.sub_le _ _) t.isLt)).2.2.2.2.1 := by
  rw [outsAt0_C m c t h0 h7]
  dsimp only
  exact Pieces.last_1 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2

theorem last2 (c : Dev nD) (t : Fin cfg0.N) (h0 : ¬t.val % 8 = 0) (h7 : t.val % 8 = 7) :
    (outsAt0 m c t.val t.isLt).2.2.2.2.2.1 = k0_pay1 (k0_pay10 (iblk m c 0 t) (iblk m c 1 t)) (k0_pay11 (iblk m c 4 t)) (outsAt0 m c (t.val - 1) (Nat.lt_of_le_of_lt (Nat.sub_le _ _) t.isLt)).2.2.2.2.2.1 := by
  rw [outsAt0_C m c t h0 h7]
  dsimp only
  exact Pieces.last_2 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2

theorem last3 (c : Dev nD) (t : Fin cfg0.N) (h0 : ¬t.val % 8 = 0) (h7 : t.val % 8 = 7) :
    (outsAt0 m c t.val t.isLt).2.2.2.2.2.2 = k0_pay2 (k0_pay10 (iblk m c 0 t) (iblk m c 1 t)) (k0_pay12 (iblk m c 5 t)) (outsAt0 m c (t.val - 1) (Nat.lt_of_le_of_lt (Nat.sub_le _ _) t.isLt)).2.2.2.2.2.2 := by
  rw [outsAt0_C m c t h0 h7]
  dsimp only
  exact Pieces.last_3 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2

/-- What a run's last point writes back to result window 11 is its block of `outArr`. -/
theorem flushed11_eq (c : Dev nD) (t : Fin cfg0.N) (hf : (cfg0.win 11).flush t = true) :
    (dats m 0 c).flushed 11 t = ((cfg0.win 11).blk t).view.read (Elt Ideal) (outArr m c) := by
  have h7 : t.val % 8 = 7 := (flush0_11 t).mp hf
  have h0 : ¬t.val % 8 = 0 := by omega
  obtain ⟨-, -, -, -, -, -, -, -, -, -, -, ⟨e0, e1⟩, -, -⟩ := Blocks.idx_facts t
  rw [Value.flushed11_C m c t h0 h7]
  funext y
  obtain ⟨p, q, rfl⟩ : ∃ (p : Fin 512) (q : Fin 512), y = ix2 p q := ⟨y 0, y 1, eq_ix2 y⟩
  show out0_C_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (ix2 p q) = outArr m c (((cfg0.win 11).blk t).view.emb (ix2 p q))
  refine (congrFun (Pieces.result_11 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) (ix2 p q)).trans ?_
  rw [← last3 m c t h0 h7]
  show Lstm.outGate (Entry.biased ((outsAt0 m c t.val t.isLt).2.2.2.2.2.2) (iblk m c 9 t)) (ix2 p q) = _
  unfold outArr
  exact Lstm.outGate_congr _ _ _ _ (Fold.gate3_at m c t h7 p q _ _ (by show win0_11.index t (0 : Fin 2) * 512 + 1 * p.val = _; rw [e0]; omega) (by show win0_11.index t (1 : Fin 2) * 512 + 1 * q.val = _; rw [e1]; omega))

/-- An index is in a point's block of result window 11 iff each coordinate is in the block's range. -/
theorem mem_blk11 (t : Fin cfg0.N) (i : S8192x2048.Idx) :
    i ∈ ((cfg0.win 11).blk t).view.set ↔ ∀ a : Fin 2, win0_11.index t a * S512x512.size a ≤ (i a).val ∧ (i a).val < win0_11.index t a * S512x512.size a + S512x512.size a := by
  show i ∈ ((View.whole main_v4_0).slice (win0_11.rect t)).set ↔ _
  rw [View.set_slice_whole, Rect.mem_set_unit]
  exact Iff.rfl

/-- Every index of the result is in the block some run's last point writes back: row tile `i₀ / 512`, column tile
    `i₁ / 512`, step 7. -/
theorem cover11 (i : S8192x2048.Idx) : ∃ t : Fin cfg0.N, (cfg0.win 11).flush t = true ∧ i ∈ ((cfg0.win 11).blk t).view.set := by
  have hi0 : (i 0).val < 8192 := idx2_lt0 i
  have hi1 : (i 1).val < 2048 := idx2_lt1 i
  refine ⟨⟨32 * ((i 0).val / 512) + 8 * ((i 1).val / 512) + 7, lt_of_lt_of_eq (by omega : _ < 512) N_0.symm⟩, (flush0_11 _).mpr (by show (32 * ((i 0).val / 512) + 8 * ((i 1).val / 512) + 7) % 8 = 7; omega), ?_⟩
  obtain ⟨-, -, -, -, -, -, -, -, -, -, -, ⟨e0, e1⟩, -, -⟩ := Blocks.idx_facts ⟨32 * ((i 0).val / 512) + 8 * ((i 1).val / 512) + 7, lt_of_lt_of_eq (by omega : _ < 512) N_0.symm⟩
  rw [mem_blk11]
  intro a
  match a with
  | ⟨0, _⟩ =>
    show win0_11.index _ (0 : Fin 2) * 512 ≤ (i 0).val ∧ (i 0).val < win0_11.index _ (0 : Fin 2) * 512 + 512
    rw [e0]; show (32 * ((i 0).val / 512) + 8 * ((i 1).val / 512) + 7) / 32 * 512 ≤ (i 0).val ∧ (i 0).val < (32 * ((i 0).val / 512) + 8 * ((i 1).val / 512) + 7) / 32 * 512 + 512; omega
  | ⟨1, _⟩ =>
    show win0_11.index _ (1 : Fin 2) * 512 ≤ (i 1).val ∧ (i 1).val < win0_11.index _ (1 : Fin 2) * 512 + 512
    rw [e1]; show (32 * ((i 0).val / 512) + 8 * ((i 1).val / 512) + 7) / 8 % 4 * 512 ≤ (i 1).val ∧ (i 1).val < (32 * ((i 0).val / 512) + 8 * ((i 1).val / 512) + 7) / 8 % 4 * 512 + 512; omega

/-- So after the run the result array is `outArr`. -/
theorem final11 (c : Dev nD) : (dats m 0 c).arrAt 11 cfg0.N = outArr m c :=
  (dats m 0 c).arrAt_eq_of_cover 11 (outArr m c) (flushed11_eq m c) cover11

/-- What a run's last point writes back to result window 12 is its block of `hidArr`. -/
theorem flushed12_eq (c : Dev nD) (t : Fin cfg0.N) (hf : (cfg0.win 12).flush t = true) :
    (dats m 0 c).flushed 12 t = ((cfg0.win 12).blk t).view.read (Elt Ideal) (hidArr m c) := by
  have h7 : t.val % 8 = 7 := (flush0_12 t).mp hf
  have h0 : ¬t.val % 8 = 0 := by omega
  obtain ⟨-, -, -, -, -, -, -, -, -, -, -, -, ⟨e0, e1⟩, -⟩ := Blocks.idx_facts t
  rw [Value.flushed12_C m c t h0 h7]
  funext y
  obtain ⟨p, q, rfl⟩ : ∃ (p : Fin 512) (q : Fin 512), y = ix2 p q := ⟨y 0, y 1, eq_ix2 y⟩
  show out0_C_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (ix2 p q) = hidArr m c (((cfg0.win 12).blk t).view.emb (ix2 p q))
  refine (congrFun (Pieces.result_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) (ix2 p q)).trans ?_
  rw [← last0 m c t h0 h7, ← last1 m c t h0 h7, ← last2 m c t h0 h7, ← last3 m c t h0 h7]
  show Lstm.hidNext (Entry.biased ((outsAt0 m c t.val t.isLt).2.2.2.1) (iblk m c 6 t)) (Entry.biased ((outsAt0 m c t.val t.isLt).2.2.2.2.1) (iblk m c 7 t)) (Entry.biased ((outsAt0 m c t.val t.isLt).2.2.2.2.2.1) (iblk m c 8 t)) (Entry.biased ((outsAt0 m c t.val t.isLt).2.2.2.2.2.2) (iblk m c 9 t)) (iblk m c 10 t) (ix2 p q) = _
  unfold hidArr
  exact Lstm.hidNext_congr _ _ _ _ _ _ _ _ _ _ _ _ (Fold.gate0_at m c t h7 p q _ _ (by show win0_12.index t (0 : Fin 2) * 512 + 1 * p.val = _; rw [e0]; omega) (by show win0_12.index t (1 : Fin 2) * 512 + 1 * q.val = _; rw [e1]; omega)) (Fold.gate1_at m c t h7 p q _ _ (by show win0_12.index t (0 : Fin 2) * 512 + 1 * p.val = _; rw [e0]; omega) (by show win0_12.index t (1 : Fin 2) * 512 + 1 * q.val = _; rw [e1]; omega)) (Fold.gate2_at m c t h7 p q _ _ (by show win0_12.index t (0 : Fin 2) * 512 + 1 * p.val = _; rw [e0]; omega) (by show win0_12.index t (1 : Fin 2) * 512 + 1 * q.val = _; rw [e1]; omega)) (Fold.gate3_at m c t h7 p q _ _ (by show win0_12.index t (0 : Fin 2) * 512 + 1 * p.val = _; rw [e0]; omega) (by show win0_12.index t (1 : Fin 2) * 512 + 1 * q.val = _; rw [e1]; omega)) (Blocks.cell_at m c t (ix2 p q) _ (by show win0_12.index t (0 : Fin 2) * 512 + 1 * p.val = 512 * (t.val / 32) + p.val; rw [e0]; omega) (by show win0_12.index t (1 : Fin 2) * 512 + 1 * q.val = 512 * (t.val / 8 % 4) + q.val; rw [e1]; omega))

/-- An index is in a point's block of result window 12 iff each coordinate is in the block's range. -/
theorem mem_blk12 (t : Fin cfg0.N) (i : S8192x2048.Idx) :
    i ∈ ((cfg0.win 12).blk t).view.set ↔ ∀ a : Fin 2, win0_12.index t a * S512x512.size a ≤ (i a).val ∧ (i a).val < win0_12.index t a * S512x512.size a + S512x512.size a := by
  show i ∈ ((View.whole main_v4_1).slice (win0_12.rect t)).set ↔ _
  rw [View.set_slice_whole, Rect.mem_set_unit]
  exact Iff.rfl

/-- Every index of the result is in the block some run's last point writes back: row tile `i₀ / 512`, column tile
    `i₁ / 512`, step 7. -/
theorem cover12 (i : S8192x2048.Idx) : ∃ t : Fin cfg0.N, (cfg0.win 12).flush t = true ∧ i ∈ ((cfg0.win 12).blk t).view.set := by
  have hi0 : (i 0).val < 8192 := idx2_lt0 i
  have hi1 : (i 1).val < 2048 := idx2_lt1 i
  refine ⟨⟨32 * ((i 0).val / 512) + 8 * ((i 1).val / 512) + 7, lt_of_lt_of_eq (by omega : _ < 512) N_0.symm⟩, (flush0_12 _).mpr (by show (32 * ((i 0).val / 512) + 8 * ((i 1).val / 512) + 7) % 8 = 7; omega), ?_⟩
  obtain ⟨-, -, -, -, -, -, -, -, -, -, -, -, ⟨e0, e1⟩, -⟩ := Blocks.idx_facts ⟨32 * ((i 0).val / 512) + 8 * ((i 1).val / 512) + 7, lt_of_lt_of_eq (by omega : _ < 512) N_0.symm⟩
  rw [mem_blk12]
  intro a
  match a with
  | ⟨0, _⟩ =>
    show win0_12.index _ (0 : Fin 2) * 512 ≤ (i 0).val ∧ (i 0).val < win0_12.index _ (0 : Fin 2) * 512 + 512
    rw [e0]; show (32 * ((i 0).val / 512) + 8 * ((i 1).val / 512) + 7) / 32 * 512 ≤ (i 0).val ∧ (i 0).val < (32 * ((i 0).val / 512) + 8 * ((i 1).val / 512) + 7) / 32 * 512 + 512; omega
  | ⟨1, _⟩ =>
    show win0_12.index _ (1 : Fin 2) * 512 ≤ (i 1).val ∧ (i 1).val < win0_12.index _ (1 : Fin 2) * 512 + 512
    rw [e1]; show (32 * ((i 0).val / 512) + 8 * ((i 1).val / 512) + 7) / 8 % 4 * 512 ≤ (i 1).val ∧ (i 1).val < (32 * ((i 0).val / 512) + 8 * ((i 1).val / 512) + 7) / 8 % 4 * 512 + 512; omega

/-- So after the run the result array is `hidArr`. -/
theorem final12 (c : Dev nD) : (dats m 0 c).arrAt 12 cfg0.N = hidArr m c :=
  (dats m 0 c).arrAt_eq_of_cover 12 (hidArr m c) (flushed12_eq m c) cover12

/-- What a run's last point writes back to result window 13 is its block of `cellArr`. -/
theorem flushed13_eq (c : Dev nD) (t : Fin cfg0.N) (hf : (cfg0.win 13).flush t = true) :
    (dats m 0 c).flushed 13 t = ((cfg0.win 13).blk t).view.read (Elt Ideal) (cellArr m c) := by
  have h7 : t.val % 8 = 7 := (flush0_13 t).mp hf
  have h0 : ¬t.val % 8 = 0 := by omega
  obtain ⟨-, -, -, -, -, -, -, -, -, -, -, -, -, ⟨e0, e1⟩⟩ := Blocks.idx_facts t
  rw [Value.flushed13_C m c t h0 h7]
  funext y
  obtain ⟨p, q, rfl⟩ : ∃ (p : Fin 512) (q : Fin 512), y = ix2 p q := ⟨y 0, y 1, eq_ix2 y⟩
  show out0_C_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 (ix2 p q) = cellArr m c (((cfg0.win 13).blk t).view.emb (ix2 p q))
  refine (congrFun (Pieces.result_13 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) scM0_3 (Memref.isWhole_whole _) (fun h => h0 ((hcond0_0 t).mp h)) ((hcond0_1 t).mpr h7) (iblk m c 0 t) (iblk m c 1 t) (iblk m c 2 t) (iblk m c 3 t) (iblk m c 4 t) (iblk m c 5 t) (iblk m c 6 t) (iblk m c 7 t) (iblk m c 8 t) (iblk m c 9 t) (iblk m c 10 t) (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2) (ix2 p q)).trans ?_
  rw [← last0 m c t h0 h7, ← last1 m c t h0 h7, ← last2 m c t h0 h7]
  show Lstm.cellNext (Entry.biased ((outsAt0 m c t.val t.isLt).2.2.2.1) (iblk m c 6 t)) (Entry.biased ((outsAt0 m c t.val t.isLt).2.2.2.2.1) (iblk m c 7 t)) (Entry.biased ((outsAt0 m c t.val t.isLt).2.2.2.2.2.1) (iblk m c 8 t)) (iblk m c 10 t) (ix2 p q) = _
  unfold cellArr
  exact Lstm.cellNext_congr _ _ _ _ _ _ _ _ _ _ (Fold.gate0_at m c t h7 p q _ _ (by show win0_13.index t (0 : Fin 2) * 512 + 1 * p.val = _; rw [e0]; omega) (by show win0_13.index t (1 : Fin 2) * 512 + 1 * q.val = _; rw [e1]; omega)) (Fold.gate1_at m c t h7 p q _ _ (by show win0_13.index t (0 : Fin 2) * 512 + 1 * p.val = _; rw [e0]; omega) (by show win0_13.index t (1 : Fin 2) * 512 + 1 * q.val = _; rw [e1]; omega)) (Fold.gate2_at m c t h7 p q _ _ (by show win0_13.index t (0 : Fin 2) * 512 + 1 * p.val = _; rw [e0]; omega) (by show win0_13.index t (1 : Fin 2) * 512 + 1 * q.val = _; rw [e1]; omega)) (Blocks.cell_at m c t (ix2 p q) _ (by show win0_13.index t (0 : Fin 2) * 512 + 1 * p.val = 512 * (t.val / 32) + p.val; rw [e0]; omega) (by show win0_13.index t (1 : Fin 2) * 512 + 1 * q.val = 512 * (t.val / 8 % 4) + q.val; rw [e1]; omega))

/-- An index is in a point's block of result window 13 iff each coordinate is in the block's range. -/
theorem mem_blk13 (t : Fin cfg0.N) (i : S8192x2048.Idx) :
    i ∈ ((cfg0.win 13).blk t).view.set ↔ ∀ a : Fin 2, win0_13.index t a * S512x512.size a ≤ (i a).val ∧ (i a).val < win0_13.index t a * S512x512.size a + S512x512.size a := by
  show i ∈ ((View.whole main_v4_2).slice (win0_13.rect t)).set ↔ _
  rw [View.set_slice_whole, Rect.mem_set_unit]
  exact Iff.rfl

/-- Every index of the result is in the block some run's last point writes back: row tile `i₀ / 512`, column tile
    `i₁ / 512`, step 7. -/
theorem cover13 (i : S8192x2048.Idx) : ∃ t : Fin cfg0.N, (cfg0.win 13).flush t = true ∧ i ∈ ((cfg0.win 13).blk t).view.set := by
  have hi0 : (i 0).val < 8192 := idx2_lt0 i
  have hi1 : (i 1).val < 2048 := idx2_lt1 i
  refine ⟨⟨32 * ((i 0).val / 512) + 8 * ((i 1).val / 512) + 7, lt_of_lt_of_eq (by omega : _ < 512) N_0.symm⟩, (flush0_13 _).mpr (by show (32 * ((i 0).val / 512) + 8 * ((i 1).val / 512) + 7) % 8 = 7; omega), ?_⟩
  obtain ⟨-, -, -, -, -, -, -, -, -, -, -, -, -, ⟨e0, e1⟩⟩ := Blocks.idx_facts ⟨32 * ((i 0).val / 512) + 8 * ((i 1).val / 512) + 7, lt_of_lt_of_eq (by omega : _ < 512) N_0.symm⟩
  rw [mem_blk13]
  intro a
  match a with
  | ⟨0, _⟩ =>
    show win0_13.index _ (0 : Fin 2) * 512 ≤ (i 0).val ∧ (i 0).val < win0_13.index _ (0 : Fin 2) * 512 + 512
    rw [e0]; show (32 * ((i 0).val / 512) + 8 * ((i 1).val / 512) + 7) / 32 * 512 ≤ (i 0).val ∧ (i 0).val < (32 * ((i 0).val / 512) + 8 * ((i 1).val / 512) + 7) / 32 * 512 + 512; omega
  | ⟨1, _⟩ =>
    show win0_13.index _ (1 : Fin 2) * 512 ≤ (i 1).val ∧ (i 1).val < win0_13.index _ (1 : Fin 2) * 512 + 512
    rw [e1]; show (32 * ((i 0).val / 512) + 8 * ((i 1).val / 512) + 7) / 8 % 4 * 512 ≤ (i 1).val ∧ (i 1).val < (32 * ((i 0).val / 512) + 8 * ((i 1).val / 512) + 7) / 8 % 4 * 512 + 512; omega

/-- So after the run the result array is `cellArr`. -/
theorem final13 (c : Dev nD) : (dats m 0 c).arrAt 13 cfg0.N = cellArr m c :=
  (dats m 0 c).arrAt_eq_of_cover 13 (cellArr m c) (flushed13_eq m c) cover13

/-- The kernel's run with each result array at the specification's value, the arguments unchanged. -/
theorem run : θ_run defs (onTc (τ := τ) (main (F := Ideal))) ⟨m, fun _ => 0, ρ⟩ fun r => ∀ c : Dev nD,
      r.2.mem ((c : Thread nD τ).loc main_v4_0) = outArr m c
      ∧ r.2.mem ((c : Thread nD τ).loc main_v4_1) = hidArr m c
      ∧ r.2.mem ((c : Thread nD τ).loc main_v4_2) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c),
      (h c).2.2.1.trans (final13 m c), (h c).2.2.2⟩)
    (Cert.KernelIdeal.Value.run_blocks m ρ)

end Cert.KernelIdeal.RefValue
-- ==== Proof.lean ====
/-
  The certificate of an LSTM cell step as one fused, tiled kernel against its plain reference, over the extended reals.

  Both programs compute, for activations `x`, `h` [8192, 4096], four weight matrices [4096, 2048] with biases [2048] and
  an old cell state [8192, 2048]: the four gate pre-activations `(x + h)·W + b`, then
    new cell = cell · σ(f) + tanh(g) · σ(σ(i)),   out = σ(o),   new hidden = out · tanh(new cell).
  The kernel tiles the result 16 x 4, accumulates each tile's four products over eight steps of 512 contraction
  indices in four scratch accumulators, and at the last step adds the biases and applies the cell update. The
  reference takes one product against the four matrices joined side by side and cuts the result into bands, and spells
  each sigmoid as 1 / (1 + e^(-x)). On the extended reals the eight block sums are the one sum regrouped (addition is
  commutative and associative there, infinities included), the narrowing to bf16 is the identity, and the spelled
  sigmoid is the logistic, so the two programs' results are equal entry by entry; no finiteness of the inputs is used.

  The frames of the two kernel programs and the reference's run are the generated ones; the ideal pass rewrote nothing,
  so the kernel's idealization is its own text.
-/
import proofs.«170384_j37924561224179_1_alg».proof.Defs
import proofs.«170384_j37924561224179_1_alg».proof.Proof.Gen.Kernel
import proofs.«170384_j37924561224179_1_alg».proof.Proof.Gen.Kernel.Skeleton
import proofs.«170384_j37924561224179_1_alg».proof.Proof.Gen.Kernel.Launch
import proofs.«170384_j37924561224179_1_alg».proof.Proof.Gen.Kernel.Points
import proofs.«170384_j37924561224179_1_alg».proof.Proof.Gen.Kernel.Frame
import proofs.«170384_j37924561224179_1_alg».proof.Proof.Gen.KernelIdeal
import proofs.«170384_j37924561224179_1_alg».proof.Proof.Gen.KernelIdeal.Skeleton
import proofs.«170384_j37924561224179_1_alg».proof.Proof.Gen.KernelIdeal.Launch
import proofs.«170384_j37924561224179_1_alg».proof.Proof.Gen.KernelIdeal.Points
import proofs.«170384_j37924561224179_1_alg».proof.Proof.Gen.KernelIdeal.Frame
import proofs.«170384_j37924561224179_1_alg».proof.Proof.Gen.ReferenceIdeal
import proofs.«170384_j37924561224179_1_alg».proof.Proof.Gen.Pre_finite_inputs
import proofs.«170384_j37924561224179_1_alg».proof.Proof.Gen.KernelIdeal.Value
import proofs.«170384_j37924561224179_1_alg».proof.Proof.Gen.ReferenceIdeal.Run
import proofs.«170384_j37924561224179_1_alg».proof.Proof.Gen.ReferenceIdeal.Read
import proofs.«170384_j37924561224179_1_alg».proof.Proof.RefIs
import proofs.«170384_j37924561224179_1_alg».proof.Proof.Final
import Idealize.ShloMosaic.Adequacy
import Idealize.ShloMosaic.Init

noncomputable section

namespace Cert.Proof

open Idealize.ShloMosaic Idealize.SL.Sem

instance : Cert.Kernel.Facts := Cert.Kernel.Gen.facts
instance : Cert.KernelIdeal.Facts := Cert.KernelIdeal.Gen.facts
instance : Cert.ReferenceIdeal.Facts := Cert.ReferenceIdeal.Gen.facts
instance : Cert.Pre_finite_inputs.Facts := Cert.Pre_finite_inputs.Gen.facts

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- From arguments that agree, both programs end with the specification's three arrays. -/
theorem algebraic : Cert.algebraic_KernelIdeal_ReferenceIdeal := by
  intro m ρ m' ρ' _ hagree
  refine ⟨fun c => Cert.KernelIdeal.RefValue.outArr m c, fun c => Cert.KernelIdeal.RefValue.hidArr m c,
    fun c => Cert.KernelIdeal.RefValue.cellArr m c, Cert.KernelIdeal.RefValue.run m ρ, ?_⟩
  refine (θ_run Cert.ReferenceIdeal.defs _ _).mono (fun _ h c => ⟨(h c).1.trans ?_, (h c).2.1.trans ?_, (h c).2.2.1.trans ?_, (h c).2.2.2⟩)
    (Cert.ReferenceIdeal.Value.run (F := Ideal) m' ρ')
  · rw [Cert.ReferenceIdeal.Read.val_main_v38_eq, Cert.ReferenceIdeal.RefValue.out_eq]
    unfold Cert.KernelIdeal.RefValue.outArr
    obtain ⟨a0, a1, a2, a3, a4, a5, a6, a7, a8, a9, a10⟩ := hagree c
    rw [a0, a1, a9, a10]
  · rw [Cert.ReferenceIdeal.Read.val_main_v40_eq, Cert.ReferenceIdeal.RefValue.hid_eq]
    unfold Cert.KernelIdeal.RefValue.hidArr
    obtain ⟨a0, a1, a2, a3, a4, a5, a6, a7, a8, a9, a10⟩ := hagree c
    rw [a0, a1, a2, a3, a4, a5, a6, a7, a8, a9, a10]
  · rw [Cert.ReferenceIdeal.Read.val_main_v32_eq, Cert.ReferenceIdeal.RefValue.cell_eq]
    unfold Cert.KernelIdeal.RefValue.cellArr
    obtain ⟨a0, a1, a2, a3, a4, a5, a6, a7, a8, a9, a10⟩ := hagree c
    rw [a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
